-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S32000x4096 : Shape := ⟨2, ![32000, 4096]⟩
abbrev S8x512 : Shape := ⟨2, ![8, 512]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_v8 : IVec S_ 1) (main_v16 : IVec S8x512 1) : IVec S_ 1 :=
  let main_c_5 : IVec S_ 1 := constantI S_ 1 1#1
  let main_v17 : IVec S_ 1 := (fun x v => Host.reduce IntOp.andi x v reducesTo_S8x512_S_d0_1 h_S_) main_v16 main_c_5
  let main_v18 : IVec S_ 1 := andi main_v8 main_v17
  main_v18

def fn {F : FTy → Type} [FloatOps F] (main_arg0 : FVec F S8x512x4096 .f32) (main_arg1 : FVec F S32000x4096 .f32) (main_arg2 : IVec S8x512 32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_c_2 : IVec S_ 32 := constantI S_ 32 4294967196#32
  let main_v9 : IVec S8x512 32 := broadcastInDim S8x512 ![] bcast_S_S8x512 main_c_2
  let main_v10 : IVec S8x512 1 := cmpi .eq main_arg2 main_v9
  let main_c_3 : IVec S_ 32 := constantI S_ 32 0#32
  let main_v11 : IVec S8x512 32 := broadcastInDim S8x512 ![] bcast_S_S8x512 main_c_3
  let main_v12 : IVec S8x512 1 := cmpi .sge main_arg2 main_v11
  let main_c_4 : IVec S_ 32 := constantI S_ 32 32000#32
  let main_v13 : IVec S8x512 32 := broadcastInDim S8x512 ![] bcast_S_S8x512 main_c_4
  let main_v14 : IVec S8x512 1 := cmpi .slt main_arg2 main_v13
  let main_v15 : IVec S8x512 1 := andi main_v12 main_v14
  let main_v16 : IVec S8x512 1 := ori main_v10 main_v15
  fn_part1 (F := F) main_v8 main_v16
-- ==== Kernel.lean ====
abbrev S8x512x4096 : Shape := ⟨3, ![8, 512, 4096]⟩
abbrev S32000x4096 : Shape := ⟨2, ![32000, 4096]⟩
abbrev S8x512 : Shape := ⟨2, ![8, 512]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1024x4096 : Shape := ⟨2, ![1024, 4096]⟩
abbrev S256x4096 : Shape := ⟨2, ![256, 4096]⟩
abbrev S1024x1 : Shape := ⟨2, ![1024, 1]⟩
abbrev S1024x128 : Shape := ⟨2, ![1024, 128]⟩
abbrev S1024x256 : Shape := ⟨2, ![1024, 256]⟩
abbrev S1024 : Shape := ⟨1, ![1024]⟩
abbrev S8 : Shape := ⟨1, ![8]⟩
abbrev S4 : Shape := ⟨1, ![4]⟩

abbrev nBuf : Space → Nat
  | .hbm => 34
  | .vmem => 9
  | .smem => 0
  | _ => 0

abbrev bufTy : (tb : Table) → Fin (tcTables nBuf tb) → BufTy
  | .hbm, ⟨0, _⟩ => ⟨S8x512x4096, .f32⟩
  | .hbm, ⟨1, _⟩ => ⟨S32000x4096, .f32⟩
  | .hbm, ⟨2, _⟩ => ⟨S8x512, .i32⟩
  | .hbm, ⟨3, _⟩ => ⟨S4096x4096, .f32⟩
  | .hbm, ⟨4, _⟩ => ⟨S4096x4096, .bf16⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x1, .f32⟩
  | .hbm, ⟨15, _⟩ => ⟨S4096, .f32⟩
  | .hbm, ⟨16, _⟩ => ⟨S8x512, .f32⟩
  | .hbm, ⟨17, _⟩ => ⟨S8x512, .i1⟩
  | .hbm, ⟨18, _⟩ => ⟨S8x512, .f32⟩
  | .hbm, ⟨19, _⟩ => ⟨S_, .f32⟩
  | .hbm, ⟨20, _⟩ => ⟨S8, .f32⟩
  | .hbm, ⟨21, _⟩ => ⟨S8x512, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x128, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 125], ![false, false]⟩

def k0_cond2 (i : grid0.Coords) : BitVec 1 :=
  let arg1 : BitVec 32 := BitVec.ofNat 32 (i 1).val
  let c124_i32 : BitVec 32 := 124#32
  let v56 : BitVec 1 := Scalar.cmpi .eq arg1 c124_i32
  let v57 : BitVec 32 := Scalar.extui v56
  let c0_i32_15 : BitVec 32 := 0#32
  let v58 : BitVec 1 := Scalar.cmpi .ne v57 c0_i32_15
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x512x4096_S4096x4096 : S8x512x4096.ShapeCasts S4096x4096
  bitsLt_bf16_f32 : FTy.bits .bf16 < FTy.bits .f32
  shapeCasts_S8x512_S4096 : S8x512.ShapeCasts S4096
  bcast_S_S4096 : S_.BroadcastsInDim S4096 (![] : Fin 0 → Fin S4096.rank)
  shapeCasts_S4096_S4096x1 : S4096.ShapeCasts S4096x1
  iota_S1024x128_d1_w32 : S1024x128.Iotas .tc 32 [1]
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  iota_S1024x256_d1_w32 : S1024x256.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  reduces_S1024x256_S1024 : S1024x256.Reduces [1] S1024
  shapeCasts_S1024_S1024x1 : S1024.ShapeCasts S1024x1
  slices_S1024x128_o0_0_S1024x1 : S1024x128.Slices ![0, 0] S1024x1
  slices_S1024x128_o0_1_S1024x1 : S1024x128.Slices ![0, 1] S1024x1
  slices_S1024x128_o0_2_S1024x1 : S1024x128.Slices ![0, 2] S1024x1
  broadcasts_S1024x1_S1024x128 : S1024x1.Broadcasts S1024x128
  shapeCasts_S4096x1_S4096 : S4096x1.ShapeCasts S4096
  shapeCasts_S4096_S8x512 : S4096.ShapeCasts S8x512
  reducesTo_S8x512_S8_d1 : S8x512.ReducesTo [1] S8
  h_S_ : 0 < S_.numel
  slices_S8_S4_0 : S8.Slices ![0] S4
  slices_S8_S4_4 : S8.Slices ![4] S4
  reducesTo_S4_S_d0 : S4.ReducesTo [0] S_
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32000x4096.size a
  hwx0_1 : ∀ i : grid0.Coords, EltTy.bits .f32 = 32 ∨ (Rect.block (s := S32000x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x512x4096 : Shape := ⟨3, ![8, 512, 4096]⟩
abbrev S32000x4096 : Shape := ⟨2, ![32000, 4096]⟩
abbrev S8x512 : Shape := ⟨2, ![8, 512]⟩
abbrev S8x512x32000 : Shape := ⟨3, ![8, 512, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩

abbrev nBuf : Space → Nat
  | .hbm => 66
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S32000x4096, .f32⟩
  | .hbm, ⟨2, _⟩ => ⟨S8x512, .i32⟩
  | .hbm, ⟨3, _⟩ => ⟨S8x512x32000, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S8x512x1, .f32⟩
  | .hbm, ⟨10, _⟩ => ⟨S8x512x32000, .f32⟩
  | .hbm, ⟨11, _⟩ => ⟨S8x512x32000, .f32⟩
  | .hbm, ⟨12, _⟩ => ⟨S8x512x32000, .f32⟩
  | .hbm, ⟨13, _⟩ => ⟨S_, .f32⟩
  | .hbm, ⟨14, _⟩ => ⟨S8x512, .f32⟩
  | .hbm, ⟨15, _⟩ => ⟨S8x512x1, .f32⟩
  | .hbm, ⟨16, _⟩ => ⟨S8x512x1, .f32⟩
  | .hbm, ⟨17, _⟩ => ⟨S8x512x32000, .f32⟩
  | .hbm, ⟨18, _⟩ => ⟨S8x512x32000, .f32⟩
  | .hbm, ⟨19, _⟩ => ⟨S_, .i32⟩
  | .hbm, ⟨20, _⟩ => ⟨S8x512, .i32⟩
  | .hbm, ⟨21, _⟩ => ⟨S8x512, .i1⟩
  | .hbm, ⟨22, _⟩ => ⟨S_, .i32⟩
  | .hbm, ⟨23, _⟩ => ⟨S_, .i32⟩
  | .hbm, ⟨24, _⟩ => ⟨S8x512, .i32⟩
  | .hbm, ⟨25, _⟩ => ⟨S8x512, .i32⟩
  | .hbm, ⟨26, _⟩ => ⟨S8x512x1, .i32⟩
  | .hbm, ⟨27, _⟩ => ⟨S_, .i32⟩
  | .hbm, ⟨28, _⟩ => ⟨S8x512x1, .i32⟩
  | .hbm, ⟨29, _⟩ => ⟨S8x512x1, .i1⟩
  | .hbm, ⟨30, _⟩ => ⟨S_, .i32⟩
  | .hbm, ⟨31, _⟩ => ⟨S8x512x1, .i32⟩
  | .hbm, ⟨32, _⟩ => ⟨S8x512x1, .i32⟩
  | .hbm, ⟨33, _⟩ => ⟨S8x512x1, .i32⟩
  | .hbm, ⟨34, _⟩ => ⟨S8x512x1x1, .i32⟩
  | .hbm, ⟨35, _⟩ => ⟨S1, .i32⟩
  | .hbm, ⟨36, _⟩ => ⟨S_, .i32⟩
  | .hbm, ⟨37, _⟩ => ⟨S8x512x1x1, .i32⟩
  | .hbm, ⟨38, _⟩ => ⟨S8x512x1x1, .i1⟩
  | .hbm, ⟨39, _⟩ => ⟨S1x1x1x1, .i32⟩
  | .hbm, ⟨40, _⟩ => ⟨S8x512x1x1, .i32⟩
  | .hbm, ⟨41, _⟩ => ⟨S8x512x1x1, .i1⟩
  | .hbm, ⟨42, _⟩ => ⟨S8x512x1x1, .i1⟩
  | .hbm, ⟨43, _⟩ => ⟨S_, .i1⟩
  | .hbm, ⟨44, _⟩ => ⟨S8x512x1, .i1⟩
  | .hbm, ⟨45, _⟩ => ⟨S8x512x1, .f32⟩
  | .hbm, ⟨46, _⟩ => ⟨S_, .f32⟩
  | .hbm, ⟨47, _⟩ => ⟨S8x512x1, .f32⟩
  | .hbm, ⟨48, _⟩ => ⟨S8x512x1, .f32⟩
  | .hbm, ⟨49, _⟩ => ⟨S8x512, .f32⟩
  | .hbm, ⟨50, _⟩ => ⟨S8x512, .f32⟩
  | .hbm, ⟨51, _⟩ => ⟨S8x512, .f32⟩
  | .hbm, ⟨52, _⟩ => ⟨S_, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_cst_3 : Ref sig .tc := ⟨.hbm, 62, rfl⟩
abbrev main_v17 : Ref sig .tc := ⟨.hbm, 63, rfl⟩
abbrev main_cst_4 : Ref sig .tc := ⟨.hbm, 64, rfl⟩
abbrev main_v18 : Ref sig .tc := ⟨.hbm, 65, rfl⟩

abbrev nD : Nat := 1
abbrev τ : Topo := Topo.v7x

variable {F : FTy → Type} [FloatOps F]

class Facts₀ : Prop where
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  slices_S8_S4_0 : S8.Slices ![0] S4
  slices_S8_S4_4 : S8.Slices ![4] S4
  reducesTo_S4_S_d0 : S4.ReducesTo [0] S_
  dot_S8x512x4096_S32000x4096_S8x512x32000_2_1_01_0_n_n_wf : DotDims.WF S8x512x4096 S32000x4096 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x4096_S32000x4096_S8x512x32000_2_1_01_0_n_n : DotDims S8x512x4096 S32000x4096 S8x512x32000 where
  lhsContracting := [2]
  rhsContracting := [1]
  lhsNonContracting := [0, 1]
  rhsNonContracting := [0]
  lhsBatch := []
  rhsBatch := []
  wf := dot_S8x512x4096_S32000x4096_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.PreRead.lean ====
/-
  The precondition read back: when the printed predicate is all ones, every entry of the two float inputs is a
  real number and every target is the ignore index or a vocabulary index.
-/
import proofs.«430064_j67920612819621_3_alg».proof.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.PreRead

open Cert.Pre_finite_inputs Idealize.ShloMosaic Idealize.ShloMosaic.ValueIdx

variable [Cert.Pre_finite_inputs.Facts]

/-- A value whose absolute value is below +∞ is a real number. -/
private theorem real_of_lt (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [StableHlo.Predicate.ofBool_eq_one_iff, decide_eq_true_eq, max_lt_iff] at h
  induction x using EReal.rec with
  | bot => exact absurd h.2 (by simp)
  | coe r => exact ⟨r, rfl⟩
  | top => exact absurd h.1 (by simp)

/-- A word that is −100, or at least 0 and below 32000 as a signed word, is −100 or below 32000 as a natural number. -/
private theorem word_range (w : BitVec 32)
    (h : IntOp.ori (IntOp.cmpi .eq w 4294967196#32) (IntOp.andi (IntOp.cmpi .sge w 0#32) (IntOp.cmpi .slt w 32000#32)) = 1#1) :
    w = 4294967196#32 ∨ w.toNat < 32000 := by
  rcases IntOp.ori_eq_one.1 h with h | h
  · exact Or.inl (StableHlo.Predicate.cmpi_eq_iff.1 h)
  · obtain ⟨h0, h1⟩ := IntOp.andi_eq_one.1 h
    right
    unfold IntOp.cmpi at h0 h1
    rw [StableHlo.Predicate.ofBool_eq_one_iff] at h0 h1
    simp only [BitVec.slt, BitVec.sle, decide_eq_true_eq] at h0 h1
    have h32 := w.isLt
    unfold BitVec.toInt at h0 h1
    split at h1 <;> simp at h0 h1 <;> omega

/-- What the precondition says of the three inputs, entry by entry. -/
theorem reads (a0 : FVec Ideal S8x512x4096 .f32) (a1 : FVec Ideal S32000x4096 .f32) (a2 : IVec S8x512 32)
    (h : Cert.Pre_finite_inputs.fn (F := Ideal) a0 a1 a2 = fun _ => 1#1) :
    (∀ i, ∃ r : ℝ, a0 i = (r : EReal)) ∧ (∀ i, ∃ r : ℝ, a1 i = (r : EReal))
      ∧ (∀ i, a2 i = 4294967196#32 ∨ (a2 i).toNat < 32000) := by
  -- the predicate at its one index is a conjunction of three reductions by "and", each 1
  have e := congrFun h ValueIdx.ix0
  unfold Cert.Pre_finite_inputs.fn Cert.Pre_finite_inputs.fn_part1 at e
  dsimp only at e
  obtain ⟨e01, e2⟩ := IntOp.andi_eq_one.1 (show IntOp.andi _ _ = 1#1 from e)
  obtain ⟨e0, e1⟩ := IntOp.andi_eq_one.1 (show IntOp.andi _ _ = 1#1 from e01)
  -- the scalar shape has one index; a reduction by "and" over every axis that is 1 had a 1 at every entry
  haveI : Subsingleton S_.Idx := ⟨fun a b => funext fun d => d.elim0⟩
  refine ⟨fun i => ?_, fun i => ?_, fun i => ?_⟩
  · exact real_of_lt (a0 i) (Host.reduce_andi_all _ _ _ _ _ e0 i)
  · exact real_of_lt (a1 i) (Host.reduce_andi_all _ _ _ _ _ e1 i)
  · exact word_range (a2 i) (Host.reduce_andi_all _ _ _ _ _ e2 i)

end Cert.PreRead

end
-- ==== Proof.KerHost.lean ====
/-
  The host lines around the kernel's region, read as values: what the three arrays the region is launched on hold
  (the token rows flattened to [4096, 4096], the weights, the label column), the mask the lines before the region
  compute, and the loss the lines after the region compute from the region's output array and that mask.
-/
import proofs.«430064_j67920612819621_3_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.KerHost

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The mask of the targets that are not the ignore index, over the flattened batch. -/
def maskOf (a2 : IVec S8x512 32) : IVec S4096 1 :=
  cmpi .ne (shapeCast S4096 a2 shapeCasts_S8x512_S4096) (broadcastInDim S4096 ![] bcast_S_S4096 (constantI S_ 32 4294967196#32))

/-- The label column: the target where it is not the ignore index, zero where it is. -/
def labelOf (a2 : IVec S8x512 32) : IVec S4096x1 32 :=
  shapeCast S4096x1
    (select (maskOf a2) (shapeCast S4096 a2 shapeCasts_S8x512_S4096)
      (broadcastInDim S4096 ![] bcast_S_S4096 (id (constantI S_ 32 0#32))))
    shapeCasts_S4096_S4096x1

/-- The loss from the region's output array and the mask: the per-token values reshaped to [8, 512], weighted by
    the mask, averaged per sequence over the mask's count, chosen half minus rejected half, averaged and scaled. -/
def lossCore (P Mk : FVec F S8x512 .f32) : FVec F S_ .f32 :=
  mulf (constant S_ .f32 0xBDCCCCCD#32)
    (Host.divf (Host.reduceAdd
      (subf
        (extractStridedSlice S4 ![0]
          (Host.divf (Host.reduceAdd (mulf P Mk) (constant S_ .f32 0x00000000#32) reducesTo_S8x512_S8_d1 h_S_)
            (Host.reduceAdd Mk (constant S_ .f32 0x00000000#32) reducesTo_S8x512_S8_d1 h_S_)) slices_S8_S4_0)
        (extractStridedSlice S4 ![4]
          (Host.divf (Host.reduceAdd (mulf P Mk) (constant S_ .f32 0x00000000#32) reducesTo_S8x512_S8_d1 h_S_)
            (Host.reduceAdd Mk (constant S_ .f32 0x00000000#32) reducesTo_S8x512_S8_d1 h_S_)) slices_S8_S4_4))
      (constant S_ .f32 0x00000000#32) reducesTo_S4_S_d0 h_S_) (constant S_ .f32 0x40800000#32))

/-- The loss from the region's output column and the flattened mask: both reshaped to [8, 512] first. -/
def lossOf (o : FVec F S4096x1 .f32) (k : IVec S4096 1) : FVec F S_ .f32 :=
  lossCore (shapeCast S8x512 (shapeCast S4096 o shapeCasts_S4096x1_S4096) shapeCasts_S4096_S8x512)
    (uitofp .f32 (shapeCast S8x512 k shapeCasts_S4096_S8x512))

theorem V_x (c : Dev nD) : (V m c main_v1 : Vec F S4096x4096 .bf16)
    = truncf .bf16 (shapeCast S4096x4096 (m ((c : Thread nD τ).loc main_arg0)) shapeCasts_S8x512x4096_S4096x4096) bitsLt_bf16_f32 := by
  dsimp only [V, V0]
  simp only [hostOps0, hostOps0_1, hostOps0_2, List.flatten_cons, List.flatten_nil, List.append_nil, List.cons_append, List.nil_append]
  after_results
  rfl

theorem V_mask (c : Dev nD) : (V m c main_v4 : Vec F S4096 .i1) = maskOf (m ((c : Thread nD τ).loc main_arg2)) := by
  dsimp only [V, V0]
  simp only [hostOps0, hostOps0_1, hostOps0_2, List.flatten_cons, List.flatten_nil, List.append_nil, List.cons_append, List.nil_append]
  after_results
  rfl

theorem V_lab (c : Dev nD) : (V m c main_v6 : Vec F S4096x1 .i32) = labelOf (m ((c : Thread nD τ).loc main_arg2)) := by
  dsimp only [V, V0]
  simp only [hostOps0, hostOps0_1, hostOps0_2, List.flatten_cons, List.flatten_nil, List.append_nil, List.cons_append, List.nil_append]
  after_results
  rfl

/-- The result the lines after the region leave: the loss of the region's output array and the mask. -/
theorem tail_eq (c : Dev nD) :
    Pipeline.afterTail₀ cfgs (dats m) 0 (V0 m) [hostOps1] c main_v21
      = lossOf ((dats m 0 c).arrAt 3 cfg0.N) (maskOf (m ((c : Thread nD τ).loc main_arg2))) := by
  unfold Pipeline.afterTail₀
  show StableHlo.after hostOps1 _ (Proc.devRef .tc main_v21) = _
  after_results
  have e7 : Pipeline.withArrays (cfgs 0).spec c (V0 m c) (fun w => (dats m 0 c).arrAt w (cfgs 0).N) (Proc.devRef .tc main_v7)
      = (dats m 0 c).arrAt 3 cfg0.N :=
    Pipeline.withArrays_arr spec0 launch0.win.arr_inj c _ _ 3
  have e4 : Pipeline.withArrays (cfgs 0).spec c (V0 m c) (fun w => (dats m 0 c).arrAt w (cfgs 0).N) (Proc.devRef .tc main_v4)
      = maskOf (m ((c : Thread nD τ).loc main_arg2)) :=
    (Pipeline.withArrays_of_ne _ c (V0 m c) _ main_v4 (by exact (by decide : ∀ w, Pipeline.arrRef spec0 w ≠ main_v4))).trans (V_mask m c)
  rw [e7, e4]
  rfl

/-- The sequence and the token of row `r` of the flattened batch. -/
abbrev seqOf (r : Fin 4096) : Fin 8 := ⟨r.val / 512, by have := r.isLt; omega⟩
abbrev tokOf (r : Fin 4096) : Fin 512 := ⟨r.val % 512, Nat.mod_lt _ (by decide)⟩

/-- Row `r` of the label column is the target of that token, or zero where the target is the ignore index. -/
theorem lab_apply (c : Dev nD) (r : Fin 4096) :
    (V m c main_v6 : Vec F S4096x1 .i32) (ix2 r 0)
      = Scalar.select (IntOp.cmpi .ne (m ((c : Thread nD τ).loc main_arg2) (ix2 (seqOf r) (tokOf r))) 4294967196#32)
          (m ((c : Thread nD τ).loc main_arg2) (ix2 (seqOf r) (tokOf r))) 0#32 := by
  rw [V_lab]
  unfold labelOf maskOf
  rw [shapeCast_apply _ shapeCasts_S4096_S4096x1 (ix2 r 0) (ix1 r) (by
    rewrite [Shape.rowMajor_val_one, Shape.rowMajor_val_two]; show r.val = r.val * 1 + 0; omega)]
  show Scalar.select (IntOp.cmpi .ne (shapeCast S4096 _ shapeCasts_S8x512_S4096 (ix1 r)) _)
    (shapeCast S4096 _ shapeCasts_S8x512_S4096 (ix1 r)) _ = _
  rw [shapeCast_apply _ shapeCasts_S8x512_S4096 (ix1 r) (ix2 (seqOf r) (tokOf r)) (by
    rewrite [Shape.rowMajor_val_two, Shape.rowMajor_val_one]; show r.val / 512 * 512 + r.val % 512 = r.val
    have := Nat.div_add_mod r.val 512; omega)]
  rfl

/-- The mask reshaped back to [8, 512] is the comparison of each target with the ignore index. -/
theorem mask_apply (a2 : IVec S8x512 32) (b : Fin 8) (t : Fin 512) :
    shapeCast S8x512 (maskOf a2) shapeCasts_S4096_S8x512 (ix2 b t) = IntOp.cmpi .ne (a2 (ix2 b t)) 4294967196#32 := by
  have hb := b.isLt; have ht := t.isLt
  rw [shapeCast_apply _ shapeCasts_S4096_S8x512 (ix2 b t) (ix1 (⟨b.val * 512 + t.val, by omega⟩ : Fin 4096)) (by
    rewrite [Shape.rowMajor_val_one, Shape.rowMajor_val_two]; rfl)]
  unfold maskOf
  show IntOp.cmpi .ne (shapeCast S4096 a2 shapeCasts_S8x512_S4096 (ix1 _)) _ = _
  rw [shapeCast_apply _ shapeCasts_S8x512_S4096 (ix1 (⟨b.val * 512 + t.val, by omega⟩ : Fin 4096)) (ix2 b t) (by
    rewrite [Shape.rowMajor_val_two, Shape.rowMajor_val_one]; rfl)]
  rfl

/-- The output column reshaped to [8, 512] reads row `512 b + t` at (b, t). -/
theorem out_apply (o : FVec F S4096x1 .f32) (b : Fin 8) (t : Fin 512) :
    shapeCast S8x512 (shapeCast S4096 o shapeCasts_S4096x1_S4096) shapeCasts_S4096_S8x512 (ix2 b t)
      = o (ix2 (⟨b.val * 512 + t.val, by have := b.isLt; have := t.isLt; omega⟩ : Fin 4096) 0) := by
  have hb := b.isLt; have ht := t.isLt
  rw [shapeCast_apply _ shapeCasts_S4096_S8x512 (ix2 b t) (ix1 (⟨b.val * 512 + t.val, by omega⟩ : Fin 4096)) (by
    rewrite [Shape.rowMajor_val_one, Shape.rowMajor_val_two]; rfl)]
  rw [shapeCast_apply _ shapeCasts_S4096x1_S4096 (ix1 (⟨b.val * 512 + t.val, by omega⟩ : Fin 4096))
    (ix2 (⟨b.val * 512 + t.val, by omega⟩ : Fin 4096) 0) (by
    rewrite [Shape.rowMajor_val_two, Shape.rowMajor_val_one]; show (b.val * 512 + t.val) * 1 + 0 = b.val * 512 + t.val; omega)]

section AtIdeal

variable (mI : (ℓ : Loc nD τ sig) → Buf (Elt Ideal) ℓ)

/-- Row `r` of the flattened token array is token `r % 512` of sequence `r / 512` (the narrowing is the identity
    over the extended reals). -/
theorem x_apply (c : Dev nD) (r h : Fin 4096) :
    (V mI c main_v1 : Vec Ideal S4096x4096 .bf16) (ix2 r h)
      = mI ((c : Thread nD τ).loc main_arg0) (ix3 (seqOf r) (tokOf r) h) := by
  rw [V_x]
  show shapeCast S4096x4096 (mI ((c : Thread nD τ).loc main_arg0)) shapeCasts_S8x512x4096_S4096x4096 (ix2 r h) = _
  exact shapeCast_apply (s := S8x512x4096) (t := S4096x4096) _ _ _ _ (by
    show (S8x512x4096.rowMajor (ix3 (seqOf r) (tokOf r) h)).val = (S4096x4096.rowMajor (ix2 r h)).val
    rewrite [Shape.rowMajor_val_three, Shape.rowMajor_val_two]
    show (r.val / 512 * 512 + r.val % 512) * 4096 + h.val = r.val * 4096 + h.val
    have := Nat.div_add_mod r.val 512; omega)

end AtIdeal

end Cert.KernelIdeal.KerHost

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.LibDotNT.lean ====
/-
  A matrix times a transposed matrix, read at an index.

  For the dimension numbers of an M × K by N × K product that contracts the LAST axis of both operands (no batch
  axis: x · Wᵀ with W stored row by row), the sum over the contraction index that a matmul into a zero accumulator
  or a dot_general denotes at the ideal values is, at row p and column q, the sum over k of l (p, k) · r (q, k).
  General in M, K, N; a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.DotNT

open Idealize.ShloMosaic Idealize.ShloMosaic.ValueIdx

variable {M K N : Nat}

/-- The dimension numbers: contract axis 1 of both operands; the result's axes are the left rows, then the right rows. -/
abbrev dims (w : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], w⟩

variable (w : DotDims.WF (⟨2, ![M, K]⟩ : Shape) ⟨2, ![N, K]⟩ ⟨2, ![M, N]⟩ [1] [1] [0] [0] [] [])

theorem contr_rank : (dims w).contr.rank = 1 := rfl
theorem contr_size : (dims w).contr.size ⟨0, by rw [contr_rank]; exact Nat.one_pos⟩ = K := rfl

/-- The contraction index is its one coordinate, a column of either operand. -/
abbrev kEquiv : (dims w).contr.Idx ≃ Fin K := contrEquiv1 (dims w) K (contr_rank w) (contr_size w)

/-- The left operand is read at (row of the result, k). -/
theorem lhsIdx_eq (j : (⟨2, ![M, N]⟩ : Shape).Idx) (k : Fin K) :
    (dims w).lhsIdx j ((kEquiv w).symm k) = ix2 (j 0) k := by
  funext a
  apply Fin.ext
  match a with
  | ⟨0, _⟩ => rfl
  | ⟨1, _⟩ =>
    exact ((dims w).lhsIdx_val_of_single (cl := 1) rfl j _).trans
      (contrEquiv1_symm_val (dims w) K (contr_rank w) (contr_size w) k)

/-- The right operand is read at (column of the result, k): its rows are the result's columns. -/
theorem rhsIdx_eq (j : (⟨2, ![M, N]⟩ : Shape).Idx) (k : Fin K) :
    (dims w).rhsIdx j ((kEquiv w).symm k) = ix2 (j 1) k := by
  funext a
  apply Fin.ext
  match a with
  | ⟨0, _⟩ => rfl
  | ⟨1, _⟩ =>
    exact ((dims w).rhsIdx_val_of_single (cr := 1) rfl j _).trans
      (contrEquiv1_symm_val (dims w) K (contr_rank w) (contr_size w) k)

/-- The contraction sum, over the shared column index. -/
theorem sum_eq (l : (⟨2, ![M, K]⟩ : Shape).Idx → EReal) (r : (⟨2, ![N, K]⟩ : Shape).Idx → EReal) (j : (⟨2, ![M, N]⟩ : Shape).Idx) :
    (∑ kk : (dims w).contr.Idx, l ((dims w).lhsIdx j kk) * r ((dims w).rhsIdx j kk))
      = ∑ k : Fin K, l (ix2 (j 0) k) * r (ix2 (j 1) k) := by
  rw [← Equiv.sum_comp (kEquiv w).symm]
  exact Finset.sum_congr rfl fun k _ =>
    congrArg₂ (· * ·) (congrArg l (lhsIdx_eq w j k)) (congrArg r (rhsIdx_eq w j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![N, K]⟩ φ₂)
    (p : Fin M) (q : Fin N) :
    matmul (dims w) prec l r (constant ⟨2, ![M, N]⟩ .f32 0x00000000#32) (ix2 p q)
      = ∑ k : Fin K, l (ix2 p k) * r (ix2 q k) :=
  (Ideal.matmul_constant_zero_apply (dims w) prec l r (ix2 p q)).trans (sum_eq w l r (ix2 p q))

/-- The host's dot_general, at (p, q). -/
theorem dotGeneral_apply (prec : Option ContractPrecision) (l : FVec Ideal ⟨2, ![M, K]⟩ φ₁) (r : FVec Ideal ⟨2, ![N, K]⟩ φ₂)
    (p : Fin M) (q : Fin N) :
    Host.dotGeneral (dims w) prec l r (ix2 p q) = ∑ k : Fin K, l (ix2 p k) * r (ix2 q k) :=
  (Ideal.dotGeneral_apply (dims w) prec _ l r (ix2 p q)).trans (sum_eq w l r (ix2 p q))

end Idealize.ShloMosaic.DotNT

end
-- ==== Proof.KerPay.lean ====
/-
  The kernel body's arithmetic read at an index, at the exact instance: each payload of the body as a function of
  the entries of the blocks it is computed from.
-/
import proofs.«430064_j67920612819621_3_alg».proof.Proof.Gen.KernelIdeal.Skeleton
import proofs.«430064_j67920612819621_3_alg».proof.Proof.LibColumns
import proofs.«430064_j67920612819621_3_alg».proof.Proof.LibDotNT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerPay

open Cert.KernelIdeal Cert.KernelIdeal.Gen Idealize.ShloMosaic Idealize.ShloMosaic.ValueIdx

/-! ## Layout and word facts the payloads are read through -/

/-- A unit-width column slice at column `k` reads the operand at that column. -/
private theorem slice_col_apply {α : Type} {a b : ℕ} (k : Fin b) (x : (⟨2, ![a, b]⟩ : Shape).Idx → α)
    (h : (⟨2, ![a, b]⟩ : Shape).Slices (![0, k.val] : Fin 2 → ℕ) ⟨2, ![a, 1]⟩) (p : Fin a) :
    extractStridedSlice ⟨2, ![a, 1]⟩ (![0, k.val] : Fin 2 → ℕ) x h (ix2 p (0 : Fin 1)) = x (ix2 p k) :=
  extractStridedSlice_apply _ x h _ _ fun ax =>
    match ax with
    | ⟨0, _⟩ => by show p.val = 0 + p.val; omega
    | ⟨1, _⟩ => by show k.val = k.val + 0; omega

/-- The source index over row `p` with lane `k` inserted on axis 1 is `(p, k)`. -/
private theorem lift_axis1 {a b : ℕ} (h : (⟨2, ![a, b]⟩ : Shape).Reduces [1] ⟨1, ![a]⟩) (p : Fin a) (k : Fin b) :
    h.lift (ix1 p) k = ix2 p k := by
  funext d
  apply Fin.ext
  match d with
  | ⟨0, _⟩ => rfl
  | ⟨1, _⟩ => rfl

/-- An iota along axis 1 reads the lane's number. -/
private theorem iota_axis1_apply {a b : ℕ} (h : (⟨2, ![a, b]⟩ : Shape).Iotas .tc 32 [1]) (p : Fin a) (k : Fin b) :
    iota .tc ⟨2, ![a, b]⟩ 32 [1] h (ix2 p k) = BitVec.ofNat 32 k.val :=
  iota_single_apply .tc _ 32 1 h (ix2 p k)

/-- A column, cast to its own shape and broadcast along the lanes, reads the column at the row. -/
private theorem bcast_col_apply {α : Type} {a b : ℕ} (v : (⟨2, ![a, 1]⟩ : Shape).Idx → α)
    (hc : (⟨2, ![a, 1]⟩ : Shape).ShapeCasts ⟨2, ![a, 1]⟩) (hb : (⟨2, ![a, 1]⟩ : Shape).Broadcasts ⟨2, ![a, b]⟩)
    (p : Fin a) (k : Fin b) :
    broadcastTo ⟨2, ![a, b]⟩ (shapeCast ⟨2, ![a, 1]⟩ v hc) hb (ix2 p k) = v (ix2 p (0 : Fin 1)) := by
  rw [shapeCast_self]
  exact Columns.broadcastTo_a1_ab_apply v hb p k

/-- The word `0xFF800000` is `-∞`. -/
private theorem ofBits_neg_inf : FloatOps.ofBits (F := Ideal) .f32 0xFF800000#32 = (⊥ : EReal) := by
  simp [Ideal.ofBits, Ideal.ieee]

/-- The zero word is `0`. -/
private theorem ofBits_zero : FloatOps.ofBits (F := Ideal) .f32 0x00000000#32 = (0 : EReal) :=
  Ideal.ofBits_zero_f32

/-- A select on an equality test of two words is the `if` on their equality. -/
private theorem select_cmpi_eq {α : Type} {w : ℕ} (x y : BitVec w) (A B : α) :
    Scalar.select (IntOp.cmpi .eq x y) A B = if x = y then A else B := by
  unfold Scalar.select IntOp.cmpi
  by_cases h : x = y
  · subst h; simp
  · have hb : (x == y) = false := beq_eq_false_iff_ne.mpr h
    simp [hb, h]

/-- Two naturals below `2 ^ 32` are equal when their 32-bit words are. -/
private theorem ofNat32_eq_iff (n c : ℕ) (hn : n < 2 ^ 32) (hc : c < 2 ^ 32) :
    BitVec.ofNat 32 n = BitVec.ofNat 32 c ↔ n = c := by
  constructor
  · intro h
    have h' := congrArg BitVec.toNat h
    rw [BitVec.toNat_ofNat, BitVec.toNat_ofNat, Nat.mod_eq_of_lt hn, Nat.mod_eq_of_lt hc] at h'
    exact h'
  · intro h; rw [h]

/-- A select on "the small number `n` is the literal `c`", tested on words, is the `if` on the naturals. -/
private theorem select_lane_eq {α : Type} (n c : ℕ) (hn : n < 2 ^ 32) (hc : c < 2 ^ 32) (A B : α) :
    Scalar.select (IntOp.cmpi .eq (BitVec.ofNat 32 n) (BitVec.ofNat 32 c)) A B = if n = c then A else B := by
  rw [select_cmpi_eq]
  exact if_congr (ofNat32_eq_iff n c hn hc) rfl rfl

/-- A select on "the lane is the literal `c`" over a block of `b` lanes. -/
private theorem select_iota_lane {α : Type} {a b : ℕ} (c : ℕ) (hc : c < 2 ^ 32) (hb : b < 2 ^ 32)
    (h : (⟨2, ![a, b]⟩ : Shape).Iotas .tc 32 [1]) (p : Fin a) (k : Fin b) (A B : (⟨2, ![a, b]⟩ : Shape).Idx → α) :
    select (cmpi .eq (iota .tc ⟨2, ![a, b]⟩ 32 [1] h) (broadcast ⟨2, ![a, b]⟩ (BitVec.ofNat 32 c))) A B (ix2 p k)
      = if k.val = c then A (ix2 p k) else B (ix2 p k) := by
  refine (select_apply _ _ _ _).trans ?_
  show Scalar.select (IntOp.cmpi .eq (iota .tc ⟨2, ![a, b]⟩ 32 [1] h (ix2 p k)) (BitVec.ofNat 32 c)) _ _ = _
  rw [iota_axis1_apply]
  exact select_lane_eq k.val c (lt_trans k.isLt hb) hc _ _

/-- The vocabulary index of lane `q` of tile `t`, computed on words. -/
private theorem tile_lane_word (t q : ℕ) :
    IntOp.addi (Scalar.muli (BitVec.ofNat 32 t) 256#32) (BitVec.ofNat 32 q) = BitVec.ofNat 32 (t * 256 + q) := by
  show BitVec.ofNat 32 t * BitVec.ofNat 32 256 + BitVec.ofNat 32 q = _
  rw [BitVec.ofNat_mul_ofNat, BitVec.ofNat_add_ofNat]

/-! ## The payloads -/

/-- The tile of logits: row `p` of the token block against row `q` of the weight tile. -/
theorem pay4_apply (v3 : Vec Ideal S256x4096 .f32) (v5 : Vec Ideal S1024x4096 .bf16) (p : Fin 1024) (q : Fin 256) :
    k0_pay4 (F := Ideal) v3 v5 (ix2 p q) = ∑ h : Fin 4096, v5 (ix2 p h) * v3 (ix2 q h) := by
  unfold k0_pay4
  refine (DotNT.matmul_zero_apply (M := 1024) (K := 4096) (N := 256)
    Facts₀.dot_S1024x4096_S256x4096_S1024x256_1_1_0_0_n_n_wf none _ _ p q).trans ?_
  rw [shapeCast_self]
  rfl

/-- Column 0 of the accumulator. -/
private theorem pay5_apply (v20 : Vec Ideal S1024x128 .f32) (p : Fin 1024) :
    k0_pay5 (F := Ideal) v20 (ix2 p 0) = v20 (ix2 p 0) := by
  unfold k0_pay5
  exact slice_col_apply (0 : Fin 128) v20 _ p

/-- The new running maximum of row `p`: the old one against the tile's row maximum. -/
theorem pay6_apply (v3 : Vec Ideal S256x4096 .f32) (v5 : Vec Ideal S1024x4096 .bf16) (v20 : Vec Ideal S1024x128 .f32)
    (p : Fin 1024) :
    k0_pay6 (F := Ideal) v3 v5 v20 (ix2 p 0)
      = max (v20 (ix2 p 0)) ((Finset.univ : Finset (Fin 256)).fold max ⊥ fun q => k0_pay4 (F := Ideal) v3 v5 (ix2 p q)) := by
  unfold k0_pay6
  refine (maximumf_apply _ _ _).trans ?_
  refine congrArg₂ max (pay5_apply v20 p) ?_
  refine (Columns.shapeCast_a_a1_apply _ _ p 0).trans ?_
  refine (Ideal.multiReduction_maximumf_single (k0_pay4 (F := Ideal) v3 v5) _ _ _ _ (ix1 p)).trans ?_
  rw [ofBits_neg_inf]
  refine congrArg (Finset.fold max ⊥ · Finset.univ) ?_
  funext k
  exact congrArg (k0_pay4 (F := Ideal) v3 v5) (lift_axis1 _ p k)

/-- The new running sum of row `p`: the old one rescaled to the new maximum, plus the tile's exponentials. -/
theorem pay7_apply (v3 : Vec Ideal S256x4096 .f32) (v5 : Vec Ideal S1024x4096 .bf16) (v20 : Vec Ideal S1024x128 .f32)
    (p : Fin 1024) :
    k0_pay7 (F := Ideal) v3 v5 v20 (ix2 p 0)
      = Ideal.exp (v20 (ix2 p 0) - k0_pay6 (F := Ideal) v3 v5 v20 (ix2 p 0)) * v20 (ix2 p 1)
        + ∑ q : Fin 256, Ideal.exp (k0_pay4 (F := Ideal) v3 v5 (ix2 p q) - k0_pay6 (F := Ideal) v3 v5 v20 (ix2 p 0)) := by
  unfold k0_pay7
  refine (addf_apply _ _ _).trans ?_
  refine congrArg₂ (· + ·) ?_ ?_
  · refine (mulf_apply _ _ _).trans ?_
    refine congrArg₂ (· * ·) ?_ (slice_col_apply (1 : Fin 128) v20 _ p)
    show Ideal.exp (k0_pay5 (F := Ideal) v20 (ix2 p 0) - k0_pay6 (F := Ideal) v3 v5 v20 (ix2 p 0)) = _
    rw [pay5_apply]
  · refine (Columns.shapeCast_a_a1_apply _ _ p 0).trans ?_
    refine (Ideal.multiReduction_add_single _ _ _ _ _ (ix1 p)).trans ?_
    refine Finset.sum_congr rfl fun (k : Fin 256) _ => ?_
    refine (congrArg _ (lift_axis1 Gen.reduces_S1024x256_S1024 p k)).trans ?_
    show Ideal.exp (k0_pay4 (F := Ideal) v3 v5 (ix2 p k)
      - broadcastTo S1024x256 (k0_pay6 (F := Ideal) v3 v5 v20) Gen.broadcasts_S1024x1_S1024x256 (ix2 p k)) = _
    rw [Columns.broadcastTo_a1_ab_apply]

/-- The label's logit so far for row `p`: the old one plus the tile's one-hot pick (the column whose vocabulary
    index, 256 times the tile's number plus the column, is the row's label). -/
theorem pay8_apply (i : grid0.Coords) (v3 : Vec Ideal S256x4096 .f32) (v5 : Vec Ideal S1024x4096 .bf16)
    (v12 : Vec Ideal S1024x1 .i32) (v20 : Vec Ideal S1024x128 .f32) (p : Fin 1024) :
    k0_pay8 (F := Ideal) i v3 v5 v12 v20 (ix2 p 0)
      = v20 (ix2 p 2) + ∑ q : Fin 256,
          if BitVec.ofNat 32 ((i 1).val * 256 + q.val) = v12 (ix2 p 0) then k0_pay4 (F := Ideal) v3 v5 (ix2 p q) else 0 := by
  unfold k0_pay8
  refine (addf_apply _ _ _).trans ?_
  refine congrArg₂ (· + ·) (slice_col_apply (2 : Fin 128) v20 _ p) ?_
  refine (Columns.shapeCast_a_a1_apply _ _ p 0).trans ?_
  refine (Ideal.multiReduction_add_single _ _ _ _ _ (ix1 p)).trans ?_
  refine Finset.sum_congr rfl fun (k : Fin 256) _ => ?_
  refine (congrArg _ (lift_axis1 Gen.reduces_S1024x256_S1024 p k)).trans ?_
  refine (select_apply _ _ _ _).trans ?_
  show Scalar.select (IntOp.cmpi .eq
      (IntOp.addi (Scalar.muli (BitVec.ofNat 32 (i 1).val) 256#32)
        (iota .tc S1024x256 32 [1] Gen.iota_S1024x256_d1_w32 (ix2 p k)))
      (broadcastTo S1024x256 (shapeCast S1024x1 v12 Gen.shapeCasts_S1024x1_S1024x1) Gen.broadcasts_S1024x1_S1024x256 (ix2 p k)))
    (k0_pay4 (F := Ideal) v3 v5 (ix2 p k)) (FloatOps.ofBits (F := Ideal) .f32 0x00000000#32) = _
  rw [select_cmpi_eq, iota_axis1_apply, bcast_col_apply, tile_lane_word]
  exact if_congr Iff.rfl rfl ofBits_zero

/-- The accumulator written back: columns 0, 1, 2 of row `p` take the three new numbers, the others keep theirs. -/
theorem pay1_apply (v20 : Vec Ideal S1024x128 .f32) (v26 v35 v36 : FVec Ideal S1024x1 .f32) (p : Fin 1024) (k : Fin 128) :
    k0_pay1 (F := Ideal) v20 v26 v35 v36 (iota .tc S1024x128 32 [1] Facts₀.iota_S1024x128_d1_w32) (k0_pay9) (ix2 p k)
      = if k.val = 0 then v26 (ix2 p 0) else if k.val = 1 then v35 (ix2 p 0) else if k.val = 2 then v36 (ix2 p 0)
        else v20 (ix2 p k) := by
  unfold k0_pay1 k0_pay9
  refine (congrFun (shapeCast_self _ _) _).trans ?_
  refine (select_iota_lane 0 (by norm_num) (by norm_num) _ p k _ _).trans ?_
  refine if_congr Iff.rfl (bcast_col_apply v26 _ _ p k) ?_
  refine (select_iota_lane 1 (by norm_num) (by norm_num) _ p k _ _).trans ?_
  refine if_congr Iff.rfl (bcast_col_apply v35 _ _ p k) ?_
  refine (select_iota_lane 2 (by norm_num) (by norm_num) _ p k _ _).trans ?_
  exact if_congr Iff.rfl (bcast_col_apply v36 _ _ p k) rfl

/-- The accumulator's first contents: `-∞` in column 0, zero elsewhere. -/
theorem pay3_apply (p : Fin 1024) (k : Fin 128) :
    k0_pay3 (F := Ideal) (ix2 p k) = if k.val = 0 then (⊥ : EReal) else 0 := by
  unfold k0_pay3
  refine (congrFun (shapeCast_self _ _) _).trans ?_
  refine (select_iota_lane 0 (by norm_num) (by norm_num) _ p k _ _).trans ?_
  exact if_congr Iff.rfl ofBits_neg_inf ofBits_zero

/-- The row's result after the last tile. -/
theorem pay2_apply (v26 v35 v36 : FVec Ideal S1024x1 .f32) (p : Fin 1024) :
    k0_pay2 (F := Ideal) v26 v35 v36 (ix2 p 0) = v36 (ix2 p 0) - (v26 (ix2 p 0) + Ideal.log (v35 (ix2 p 0))) := by
  unfold k0_pay2
  rfl

end Cert.KernelIdeal.KerPay

end
-- ==== Proof.KerPieces.lean ====
/-
  What each control case of the kernel body leaves behind, as the body's arithmetic: the carried accumulator after
  a point is the written-back payload of the blocks the point read (over the fresh accumulator at a row block's
  first vocabulary tile, over the previous point's accumulator otherwise), and the output block at a row block's
  last tile is the result payload.
-/
import proofs.«430064_j67920612819621_3_alg».proof.Proof.Gen.KernelIdeal.Frame
import Idealize.ShloMosaic.Lib.Pipeline.Value

set_option maxRecDepth 16384

noncomputable section

namespace Cert.KernelIdeal.KerPieces

open Cert.KernelIdeal Cert.KernelIdeal.Gen Idealize.ShloMosaic Idealize.ShloMosaic.TcCoe Idealize.ShloMosaic.Tactic
open Idealize.SL Idealize.SL.Sem

variable {F : FTy → Type} [FloatOps F]

/-- The zero offsets of a whole-block rectangle, as the constant function. -/
private theorem hz : (![0, 0] : Fin 2 → Nat) = fun _ => 0 := funext fun a => by fin_cases a <;> rfl

/-- The accumulator a point writes back, from the accumulator `acc` it started from and the blocks it read. -/
def accOut (i : grid0.Coords) (x0 : Vec F S1024x4096 .bf16) (x1 : Vec F S256x4096 .f32) (x2 : Vec F S1024x1 .i32) (acc : Vec F S1024x128 .f32) : Vec F S1024x128 .f32 :=
  k0_pay1 acc (k0_pay6 x1 x0 acc) (k0_pay7 x1 x0 acc) (k0_pay8 i x1 x0 x2 acc)
    (iota .tc S1024x128 32 [1] Facts₀.iota_S1024x128_d1_w32) k0_pay9

/-- First vocabulary tile of a row block: the accumulator is set afresh, then updated. -/
theorem sout_A (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x128 .f32) (harg6 : arg6.IsWhole) (hc0 : cond0_0 i) (hc1 : ¬cond0_1 i) (x0 : Vec F S1024x4096 .bf16) (x1 : Vec F S256x4096 .f32) (x2 : Vec F S1024x1 .i32) :
    sout0_A_0 c i arg2 harg2 arg3 harg3 arg4 harg4 arg5 harg5 arg6 harg6 hc0 hc1 x0 x1 x2 = accOut i x0 x1 x2 (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x128) hz, View.readCov_unit_zero (S := S1024x128) _ hz]
  unfold accOut
  simp only [View.readAt_eq_ld, harg2.read_unread, harg3.read_unread, harg4.read_unread, harg5.read_unread, harg6.read_unread,
    View.ld_unit_zero (S := S1024x4096) hz, View.ld_unit_zero (S := S256x4096) hz, View.ld_unit_zero (S := S1024x1) hz,
    View.ld_unit_zero (S := S1024x128) hz, View.readCov_unit_zero (S := S1024x128) _ hz]

/-- A middle tile: the previous point's accumulator `xs0`, updated. -/
theorem sout_B (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x128 .f32) (harg6 : arg6.IsWhole) (hc0 : ¬cond0_0 i) (hc1 : ¬cond0_1 i) (x0 : Vec F S1024x4096 .bf16) (x1 : Vec F S256x4096 .f32) (x2 : Vec F S1024x1 .i32) (xs0 : Vec F S1024x128 .f32) :
    sout0_B_0 c i arg2 harg2 arg3 harg3 arg4 harg4 arg5 harg5 arg6 harg6 hc0 hc1 x0 x1 x2 xs0 = accOut i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  unfold accOut
  simp only [View.readAt_eq_ld, harg2.read_unread, harg3.read_unread, harg4.read_unread, harg5.read_unread, harg6.read_unread,
    View.ld_unit_zero (S := S1024x4096) hz, View.ld_unit_zero (S := S256x4096) hz, View.ld_unit_zero (S := S1024x1) hz,
    View.ld_unit_zero (S := S1024x128) hz]

/-- The last tile: the same update, -/
theorem sout_C (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x128 .f32) (harg6 : arg6.IsWhole) (hc0 : ¬cond0_0 i) (hc1 : cond0_1 i) (x0 : Vec F S1024x4096 .bf16) (x1 : Vec F S256x4096 .f32) (x2 : Vec F S1024x1 .i32) (xs0 : Vec F S1024x128 .f32) :
    sout0_C_0 c i arg2 harg2 arg3 harg3 arg4 harg4 arg5 harg5 arg6 harg6 hc0 hc1 x0 x1 x2 xs0 = accOut i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  unfold accOut
  simp only [View.readAt_eq_ld, harg2.read_unread, harg3.read_unread, harg4.read_unread, harg5.read_unread, harg6.read_unread,
    View.ld_unit_zero (S := S1024x4096) hz, View.ld_unit_zero (S := S256x4096) hz, View.ld_unit_zero (S := S1024x1) hz,
    View.ld_unit_zero (S := S1024x128) hz]

/-- and the output block is the rows' results. -/
theorem out_C (c : Dev nD) (i : grid0.Coords) (arg2 : Memref sig .tc .vmem S1024x4096 .bf16) (harg2 : arg2.IsWhole) (arg3 : Memref sig .tc .vmem S256x4096 .f32) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x128 .f32) (harg6 : arg6.IsWhole) (hc0 : ¬cond0_0 i) (hc1 : cond0_1 i) (x0 : Vec F S1024x4096 .bf16) (x1 : Vec F S256x4096 .f32) (x2 : Vec F S1024x1 .i32) (xs0 : Vec F S1024x128 .f32) :
    out0_C_3 c i arg2 harg2 arg3 harg3 arg4 harg4 arg5 harg5 arg6 harg6 hc0 hc1 x0 x1 x2 xs0
      = k0_pay2 (k0_pay6 x1 x0 xs0) (k0_pay7 x1 x0 xs0) (k0_pay8 i x1 x0 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg5.read_unread, harg6.read_unread,
    View.ld_unit_zero (S := S1024x4096) hz, View.ld_unit_zero (S := S256x4096) hz, View.ld_unit_zero (S := S1024x1) hz,
    View.ld_unit_zero (S := S1024x128) hz]

end Cert.KernelIdeal.KerPieces

end
-- ==== Proof.Spec.lean ====
/-
  The mathematics of the certificate, free of both programs.

  For a token row with logits `S j` (one real per vocabulary entry `j < 32000`) and label `lab`, both programs
  compute `S lab - log (∑ j, exp (S j))`.  The reference takes the row maximum `M` first and evaluates
  `(S lab - M) - log (∑ j, exp (S j - M))`.  The kernel streams the vocabulary in 125 tiles of 256 entries and
  carries three numbers per row: a running maximum `m`, the sum `l = ∑ exp (S j - m)` over the entries seen so
  far, and the label's logit `t` once its tile has passed; a tile replaces `m` by `m' = max m (tile maximum)`,
  `l` by `exp (m - m') * l + ∑ exp (s q - m')` and adds the tile's one-hot pick to `t`; after the last tile the
  row's result is `t - (m + log l)`.  Since `M + log (∑ exp (S j - M)) = log (∑ exp (S j))` for every real `M`,
  neither side's choice of `M` matters: only that it is a real number.
-/
import Mathlib.Analysis.SpecialFunctions.Log.Basic
import Idealize.ShloMosaic.PureOps.Ideal

noncomputable section

namespace Cert.Spec

open Idealize.ShloMosaic

/-- The logit of token row `r` against vocabulary entry `j`: the inner product of the row with the entry's weights. -/
def logit (X : Fin 4096 → Fin 4096 → ℝ) (W : Fin 32000 → Fin 4096 → ℝ) (r : Fin 4096) (j : Fin 32000) : ℝ :=
  ∑ h : Fin 4096, X r h * W j h

/-- The log-probability the softmax over the vocabulary gives the row's label. -/
def tokLogp (X : Fin 4096 → Fin 4096 → ℝ) (W : Fin 32000 → Fin 4096 → ℝ) (lab : Fin 4096 → Fin 32000)
    (r : Fin 4096) : ℝ :=
  logit X W r (lab r) - Real.log (∑ j : Fin 32000, Real.exp (logit X W r j))

/-- Token `t` of sequence `b` is row `512 b + t` of the flattened batch. -/
def rowOf (b : Fin 8) (t : Fin 512) : Fin 4096 := ⟨b.val * 512 + t.val, by have := b.isLt; have := t.isLt; omega⟩

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of two reals is the maximum of the coercions. -/
theorem coe_max (x y : ℝ) : ((max x y : ℝ) : EReal) = max (x : EReal) (y : EReal) :=
  EReal.coe_strictMono.monotone.map_max

/-- The maximum of a nonempty finite family of reals, folded from `-∞` in the extended reals, is a real. -/
theorem fold_max_real {ι : Type*} [Fintype ι] [Nonempty ι] (f : ι → EReal) (hf : ∀ q, ∃ r : ℝ, f q = (r : EReal)) :
    ∃ R : ℝ, (Finset.univ : Finset ι).fold max (⊥ : EReal) f = (R : EReal) := by
  classical
  have hlt : (Finset.univ : Finset ι).fold max (⊥ : EReal) f < ⊤ := by
    rw [Finset.fold_max_lt]
    refine ⟨bot_lt_top, fun x _ => ?_⟩
    obtain ⟨r, hr⟩ := hf x
    rw [hr]; exact EReal.coe_lt_top _
  obtain ⟨q0⟩ := ‹Nonempty ι›
  obtain ⟨r0, hr0⟩ := hf q0
  have hge : ((r0 : ℝ) : EReal) ≤ (Finset.univ : Finset ι).fold max (⊥ : EReal) f := by
    rw [Finset.le_fold_max]
    exact Or.inr ⟨q0, Finset.mem_univ _, hr0.ge⟩
  have hbot : (Finset.univ : Finset ι).fold max (⊥ : EReal) f ≠ ⊥ := fun h => by
    rw [h] at hge; exact absurd hge (not_le.mpr (EReal.bot_lt_coe _))
  exact ⟨_, (EReal.coe_toReal hlt.ne hbot).symm⟩

/-- Shifting by any real `M` does not change a log-sum-exp. -/
theorem lse_shift {ι : Type*} (s : Finset ι) (hs : s.Nonempty) (f : ι → ℝ) (M : ℝ) :
    M + Real.log (∑ j ∈ s, Real.exp (f j - M)) = Real.log (∑ j ∈ s, Real.exp (f j)) := by
  have hpos : 0 < ∑ j ∈ s, Real.exp (f j - M) := Finset.sum_pos (fun _ _ => Real.exp_pos _) hs
  have hmul : Real.exp M * ∑ j ∈ s, Real.exp (f j - M) = ∑ j ∈ s, Real.exp (f j) := by
    rw [Finset.mul_sum]
    refine Finset.sum_congr rfl fun j _ => ?_
    rw [← Real.exp_add]; congr 1; ring
  rw [← hmul, Real.log_mul (Real.exp_pos M).ne' hpos.ne', Real.log_exp]

/-- The state the streaming log-sum-exp carries for one row after `n` vocabulary tiles (columns 0, 1, 2 of the
    kernel's accumulator): before the first tile the maximum is `-∞` and the sum is zero; afterwards the maximum is
    some real `M` and the sum is that of `exp (S j - M)` over the entries seen; the third number is the label's
    logit once its tile has passed, zero before. -/
def RowState (S : ℕ → ℝ) (lab n : ℕ) (a0 a1 a2 : EReal) : Prop :=
  ((n = 0 ∧ a0 = ⊥ ∧ a1 = 0) ∨
    ∃ M : ℝ, a0 = (M : EReal) ∧ a1 = ((∑ j ∈ Finset.range (256 * n), Real.exp (S j - M) : ℝ) : EReal)) ∧
  a2 = ((if lab < 256 * n then S lab else 0 : ℝ) : EReal)

/-- Before the first tile. -/
theorem rowState_zero (S : ℕ → ℝ) (lab : ℕ) : RowState S lab 0 ⊥ 0 0 :=
  ⟨Or.inl ⟨rfl, rfl, rfl⟩, by simp⟩

/-- One tile: from the state after `n` tiles and the tile's 256 logits to the state after `n + 1`. -/
theorem rowState_step (S : ℕ → ℝ) (lab n : ℕ) (a0 a1 a2 : EReal) (h : RowState S lab n a0 a1 a2)
    (s : Fin 256 → EReal) (hs : ∀ q : Fin 256, s q = ((S (256 * n + q.val) : ℝ) : EReal)) :
    RowState S lab (n + 1)
      (max a0 ((Finset.univ : Finset (Fin 256)).fold max ⊥ s))
      (Ideal.exp (a0 - max a0 ((Finset.univ : Finset (Fin 256)).fold max ⊥ s)) * a1
        + ∑ q : Fin 256, Ideal.exp (s q - max a0 ((Finset.univ : Finset (Fin 256)).fold max ⊥ s)))
      (a2 + ∑ q : Fin 256, if 256 * n + q.val = lab then s q else 0) := by
  obtain ⟨R, hR⟩ := fold_max_real s (fun q => ⟨_, hs q⟩)
  rw [hR]
  obtain ⟨h01, h2⟩ := h
  have hsplit : ∀ M' : ℝ, ∑ j ∈ Finset.range (256 * (n + 1)), Real.exp (S j - M')
      = ∑ j ∈ Finset.range (256 * n), Real.exp (S j - M') + ∑ q : Fin 256, Real.exp (S (256 * n + q.val) - M') := by
    intro M'
    rw [show 256 * (n + 1) = 256 * n + 256 by ring, Finset.sum_range_add,
      Finset.sum_range fun x => Real.exp (S (256 * n + x) - M')]
  have htile : ∀ M' : ℝ, ∑ q : Fin 256, Ideal.exp (s q - (M' : EReal))
      = ((∑ q : Fin 256, Real.exp (S (256 * n + q.val) - M') : ℝ) : EReal) := by
    intro M'
    rw [coe_sum]
    refine Finset.sum_congr rfl fun q _ => ?_
    rw [hs q, ← EReal.coe_sub, Ideal.exp_coe]
  refine ⟨Or.inr ?_, ?_⟩
  · rcases h01 with ⟨_, h0, h1⟩ | ⟨M, h0, h1⟩
    · subst h0 h1
      refine ⟨R, by rw [max_eq_right bot_le], ?_⟩
      rw [max_eq_right bot_le, EReal.bot_sub, Ideal.exp_bot, mul_zero, zero_add, htile, hsplit]
      subst ‹n = 0›
      simp
    · subst h0 h1
      refine ⟨max M R, by rw [coe_max], ?_⟩
      rw [← coe_max, ← EReal.coe_sub, Ideal.exp_coe, ← EReal.coe_mul, htile, ← EReal.coe_add, hsplit]
      congr 2
      rw [Finset.mul_sum]
      refine Finset.sum_congr rfl fun j _ => ?_
      rw [← Real.exp_add]; congr 1; ring
  · rw [h2]
    have hpick : (∑ q : Fin 256, if 256 * n + q.val = lab then s q else 0)
        = ((if 256 * n ≤ lab ∧ lab < 256 * (n + 1) then S lab else 0 : ℝ) : EReal) := by
      by_cases hin : 256 * n ≤ lab ∧ lab < 256 * (n + 1)
      · rw [if_pos hin]
        have hq : lab - 256 * n < 256 := by omega
        rw [Finset.sum_eq_single (⟨lab - 256 * n, hq⟩ : Fin 256)]
        · rw [if_pos (by show 256 * n + (lab - 256 * n) = lab; omega), hs]
          congr 3; show 256 * n + (lab - 256 * n) = lab; omega
        · intro q _ hne
          rw [if_neg]
          intro he; apply hne; apply Fin.ext; show q.val = lab - 256 * n; omega
        · intro hni; exact absurd (Finset.mem_univ _) hni
      · rw [if_neg hin]
        refine (Finset.sum_eq_zero fun q _ => ?_).trans EReal.coe_zero.symm
        rw [if_neg]
        intro he; apply hin; have := q.isLt; omega
    rw [hpick, ← EReal.coe_add]
    congr 1
    by_cases h1 : lab < 256 * n
    · rw [if_pos h1, if_neg (by omega), if_pos (by omega), add_zero]
    · rw [if_neg h1]
      by_cases h3 : lab < 256 * (n + 1)
      · rw [if_pos ⟨by omega, h3⟩, if_pos h3, zero_add]
      · rw [if_neg (fun h => h3 h.2), if_neg h3, zero_add]

/-- After the last tile the row's result `t - (m + log l)` is the label's log-probability. -/
theorem rowState_final (S : ℕ → ℝ) (lab : ℕ) (hlab : lab < 32000) (a0 a1 a2 : EReal)
    (h : RowState S lab 125 a0 a1 a2) :
    a2 - (a0 + Ideal.log a1) = ((S lab - Real.log (∑ j ∈ Finset.range 32000, Real.exp (S j)) : ℝ) : EReal) := by
  obtain ⟨h01, h2⟩ := h
  rcases h01 with ⟨h0, _⟩ | ⟨M, h0, h1⟩
  · exact absurd h0 (by decide)
  · have hne : (Finset.range (256 * 125)).Nonempty := ⟨0, by simp⟩
    have hpos : 0 < ∑ j ∈ Finset.range (256 * 125), Real.exp (S j - M) :=
      Finset.sum_pos (fun _ _ => Real.exp_pos _) hne
    rw [h0, h1, h2, Ideal.log_coe, if_neg (not_le.mpr hpos), ← EReal.coe_add, ← EReal.coe_sub,
      lse_shift _ hne, if_pos (by omega)]

/-- The reference's row: with any real `M` in the role of the row maximum. -/
theorem ref_row (S : Fin 32000 → ℝ) (l : Fin 32000) (M : ℝ) :
    (((S l : ℝ) : EReal) - (M : EReal)) - Ideal.log ((∑ j : Fin 32000, Real.exp (S j - M) : ℝ) : EReal)
      = ((S l - Real.log (∑ j : Fin 32000, Real.exp (S j)) : ℝ) : EReal) := by
  have hne : (Finset.univ : Finset (Fin 32000)).Nonempty := ⟨0, Finset.mem_univ _⟩
  have hpos : 0 < ∑ j : Fin 32000, Real.exp (S j - M) := Finset.sum_pos (fun _ _ => Real.exp_pos _) hne
  rw [Ideal.log_coe, if_neg (not_le.mpr hpos), ← EReal.coe_sub, ← EReal.coe_sub, ← lse_shift _ hne S M]
  congr 1; ring

end Cert.Spec

end
-- ==== Proof.KerValue.lean ====
/-
  What the kernel's output array holds after the run, at the exact instance.

  The grid is 4 row blocks of 1024 token rows by 125 vocabulary tiles of 256 entries, the tile the inner axis:
  point `t` works on row block `t / 125` and tile `t % 125`.  The accumulator carried between points holds, for
  each row of the block, the running maximum, the running sum of exponentials and the label's logit so far
  (`Cert.Spec.RowState`); the first tile of a row block starts it afresh.  By induction on the point the accumulator
  after point `t` is in the state "after `t % 125 + 1` tiles", so at a row block's last tile the stored block is
  the rows' log-probabilities, and the four stored blocks cover the [4096, 1] array.
-/
import proofs.«430064_j67920612819621_3_alg».proof.Proof.Gen.KernelIdeal.Frame
import proofs.«430064_j67920612819621_3_alg».proof.Proof.KerPay
import proofs.«430064_j67920612819621_3_alg».proof.Proof.KerPieces
import proofs.«430064_j67920612819621_3_alg».proof.Proof.Spec
import Idealize.ShloMosaic.Lib.Pipeline.Value
import Idealize.ShloMosaic.Lib.ValueIdx

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem N500 : cfg0.N = 500 := N_0

/-- The printed index maps over the grid: the token, label and output windows follow the row block, the weight
    window the vocabulary tile, and the body's second grid coordinate is the tile's number. -/
theorem idx_facts : ∀ t : Fin cfg0.N,
    win0_0.index t (0 : Fin 2) = t.val / 125 ∧ win0_0.index t (1 : Fin 2) = 0
    ∧ win0_1.index t (0 : Fin 2) = t.val % 125 ∧ win0_1.index t (1 : Fin 2) = 0
    ∧ win0_2.index t (0 : Fin 2) = t.val / 125 ∧ win0_2.index t (1 : Fin 2) = 0
    ∧ win0_3.index t (0 : Fin 2) = t.val / 125 ∧ win0_3.index t (1 : Fin 2) = 0
    ∧ ((grid0.coords t) 1).val = t.val % 125 :=
  (by decide +kernel : ∀ t : Fin grid0.N, _)

/-- The arrays as the region finds them, and the blocks a point reads, at their literal types. -/
abbrev xarr (c : Dev nD) : Vec Ideal S4096x4096 .bf16 := V m c main_v1
abbrev warr (c : Dev nD) : Vec Ideal S32000x4096 .f32 := V m c main_arg1
abbrev larr (c : Dev nD) : Vec Ideal S4096x1 .i32 := V m c main_v6
abbrev xblk (c : Dev nD) (t : Fin cfg0.N) : Vec Ideal S1024x4096 .bf16 := iblk m c 0 t
abbrev wblk (c : Dev nD) (t : Fin cfg0.N) : Vec Ideal S256x4096 .f32 := iblk m c 1 t
abbrev lblk (c : Dev nD) (t : Fin cfg0.N) : Vec Ideal S1024x1 .i32 := iblk m c 2 t
/-- The accumulator after point `n`. -/
abbrev acc (c : Dev nD) (n : ℕ) (hn : n < cfg0.N) : Vec Ideal S1024x128 .f32 := (outsAt0 m c n hn).2

/-- Row `p` of point `t`'s row block, as a row of the flattened batch. -/
def rowIx (t : Fin cfg0.N) (p : Fin 1024) : Fin 4096 :=
  ⟨1024 * (t.val / 125) + p.val, by have := t.isLt; have := N500; have := p.isLt; omega⟩
/-- Column `q` of point `t`'s vocabulary tile, as a vocabulary entry. -/
def vocIx (t : Fin cfg0.N) (q : Fin 256) : Fin 32000 :=
  ⟨256 * (t.val % 125) + q.val, by have := q.isLt; omega⟩

theorem xblk_apply (c : Dev nD) (t : Fin cfg0.N) (p : Fin 1024) (h : Fin 4096) :
    xblk m c t (ix2 p h) = xarr m c (ix2 (rowIx t p) h) := by
  obtain ⟨e0, e1, -⟩ := idx_facts t
  unfold xblk iblk
  rw [View.read_apply]
  show V m c main_v1 _ = V m c main_v1 _
  congr 1
  funext a; apply Fin.ext
  match a with
  | ⟨0, _⟩ => show win0_0.index t 0 * 1024 + 1 * p.val = 1024 * (t.val / 125) + p.val; rw [e0]; omega
  | ⟨1, _⟩ => show win0_0.index t 1 * 4096 + 1 * h.val = h.val; rw [e1]; omega

theorem wblk_apply (c : Dev nD) (t : Fin cfg0.N) (q : Fin 256) (h : Fin 4096) :
    wblk m c t (ix2 q h) = warr m c (ix2 (vocIx t q) h) := by
  obtain ⟨-, -, e0, e1, -⟩ := idx_facts t
  unfold wblk iblk
  rw [View.read_apply]
  show V m c main_arg1 _ = V m c main_arg1 _
  congr 1
  funext a; apply Fin.ext
  match a with
  | ⟨0, _⟩ => show win0_1.index t 0 * 256 + 1 * q.val = 256 * (t.val % 125) + q.val; rw [e0]; omega
  | ⟨1, _⟩ => show win0_1.index t 1 * 4096 + 1 * h.val = h.val; rw [e1]; omega

theorem lblk_apply (c : Dev nD) (t : Fin cfg0.N) (p : Fin 1024) :
    lblk m c t (ix2 p 0) = larr m c (ix2 (rowIx t p) 0) := by
  obtain ⟨-, -, -, -, e0, e1, -⟩ := idx_facts t
  unfold lblk iblk
  rw [View.read_apply]
  show V m c main_v6 _ = V m c main_v6 _
  congr 1
  funext a; apply Fin.ext
  match a with
  | ⟨0, _⟩ => show win0_2.index t 0 * 1024 + 1 * p.val = 1024 * (t.val / 125) + p.val; rw [e0]; omega
  | ⟨1, _⟩ => show win0_2.index t 1 * 1 + 1 * 0 = 0; rw [e1]

/-- A row's logits as a sequence over the vocabulary (zero past its end). -/
def Srow (X : Fin 4096 → Fin 4096 → ℝ) (W : Fin 32000 → Fin 4096 → ℝ) (r : Fin 4096) : ℕ → ℝ :=
  fun j => if h : j < 32000 then Cert.Spec.logit X W r ⟨j, h⟩ else 0

theorem val0 : ((0 : Fin 128) : ℕ) = 0 := rfl
theorem val1 : ((1 : Fin 128) : ℕ) = 1 := rfl
theorem val2 : ((2 : Fin 128) : ℕ) = 2 := rfl

/-- Columns 0, 1, 2 of the written-back accumulator are the three new numbers of the row. -/
theorem pay1_col0 (v20 : Vec Ideal S1024x128 .f32) (v26 v35 v36 : FVec Ideal S1024x1 .f32) (p : Fin 1024) :
    k0_pay1 (F := Ideal) v20 v26 v35 v36 (iota .tc S1024x128 32 [1] Facts₀.iota_S1024x128_d1_w32) k0_pay9 (ix2 p 0)
      = v26 (ix2 p 0) := by
  rw [KerPay.pay1_apply, if_pos val0]
theorem pay1_col1 (v20 : Vec Ideal S1024x128 .f32) (v26 v35 v36 : FVec Ideal S1024x1 .f32) (p : Fin 1024) :
    k0_pay1 (F := Ideal) v20 v26 v35 v36 (iota .tc S1024x128 32 [1] Facts₀.iota_S1024x128_d1_w32) k0_pay9 (ix2 p 1)
      = v35 (ix2 p 0) := by
  rw [KerPay.pay1_apply, if_neg (show ¬((1 : Fin 128) : ℕ) = 0 by decide), if_pos val1]
theorem pay1_col2 (v20 : Vec Ideal S1024x128 .f32) (v26 v35 v36 : FVec Ideal S1024x1 .f32) (p : Fin 1024) :
    k0_pay1 (F := Ideal) v20 v26 v35 v36 (iota .tc S1024x128 32 [1] Facts₀.iota_S1024x128_d1_w32) k0_pay9 (ix2 p 2)
      = v36 (ix2 p 0) := by
  rw [KerPay.pay1_apply, if_neg (show ¬((2 : Fin 128) : ℕ) = 0 by decide),
    if_neg (show ¬((2 : Fin 128) : ℕ) = 1 by decide), if_pos val2]

/-- An index of the output array is in point `t`'s block iff each coordinate is in the block's range. -/
theorem mem_blk (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v7).slice (win0_3.rect t)).set ↔ _
  rw [View.set_slice_whole, Rect.mem_set_unit]
  exact Iff.rfl

section Values

variable (X : Fin 4096 → Fin 4096 → ℝ) (W : Fin 32000 → Fin 4096 → ℝ) (lab : Fin 4096 → Fin 32000)

/-- With real inputs the tile of logits at point `t` is the logits of the block's rows against the tile's entries. -/
theorem tile_logit (c : Dev nD) (t : Fin cfg0.N)
    (hX : ∀ (r h : Fin 4096), xarr m c (ix2 r h) = ((X r h : ℝ) : EReal))
    (hW : ∀ (j : Fin 32000) (h : Fin 4096), warr m c (ix2 j h) = ((W j h : ℝ) : EReal))
    (p : Fin 1024) (q : Fin 256) :
    k0_pay4 (F := Ideal) (wblk m c t) (xblk m c t) (ix2 p q)
      = ((Srow X W (rowIx t p) (256 * (t.val % 125) + q.val) : ℝ) : EReal) := by
  rw [KerPay.pay4_apply]
  have hq : 256 * (t.val % 125) + q.val < 32000 := by have := q.isLt; omega
  unfold Srow
  rw [dif_pos hq]
  unfold Cert.Spec.logit
  rw [Cert.Spec.coe_sum]
  refine Finset.sum_congr rfl fun h _ => ?_
  rw [xblk_apply, wblk_apply, hX, hW, EReal.coe_mul]
  rfl

/-- One point's update of one row of the accumulator, as a step of the streaming log-sum-exp. -/
theorem accOut_row (i : grid0.Coords) (x0 : Vec Ideal S1024x4096 .bf16) (x1 : Vec Ideal S256x4096 .f32)
    (x2 : Vec Ideal S1024x1 .i32) (a : Vec Ideal S1024x128 .f32) (p : Fin 1024) (S : ℕ → ℝ) (l n : ℕ)
    (hi : (i 1).val = n) (hn : n < 125) (hl : l < 32000)
    (hs : ∀ q : Fin 256, k0_pay4 (F := Ideal) x1 x0 (ix2 p q) = ((S (256 * n + q.val) : ℝ) : EReal))
    (hx2 : x2 (ix2 p 0) = BitVec.ofNat 32 l)
    (h : Cert.Spec.RowState S l n (a (ix2 p 0)) (a (ix2 p 1)) (a (ix2 p 2))) :
    Cert.Spec.RowState S l (n + 1) (KerPieces.accOut i x0 x1 x2 a (ix2 p 0))
      (KerPieces.accOut i x0 x1 x2 a (ix2 p 1)) (KerPieces.accOut i x0 x1 x2 a (ix2 p 2)) := by
  have h6 := KerPay.pay6_apply x1 x0 a p
  have h7 := KerPay.pay7_apply x1 x0 a p
  have h8 := KerPay.pay8_apply i x1 x0 x2 a p
  rw [h6] at h7
  have hsum : (∑ q : Fin 256, if BitVec.ofNat 32 ((i 1).val * 256 + q.val) = x2 (ix2 p 0)
        then k0_pay4 (F := Ideal) x1 x0 (ix2 p q) else 0)
      = ∑ q : Fin 256, if 256 * n + q.val = l then k0_pay4 (F := Ideal) x1 x0 (ix2 p q) else 0 := by
    refine Finset.sum_congr rfl fun q _ => ?_
    rw [hx2, hi]
    refine if_congr ?_ rfl rfl
    have hq := q.isLt
    constructor
    · intro e
      have e' := congrArg BitVec.toNat e
      rw [BitVec.toNat_ofNat, BitVec.toNat_ofNat, Nat.mod_eq_of_lt (by omega), Nat.mod_eq_of_lt (by omega)] at e'
      omega
    · intro e
      rw [← e]; congr 1; omega
  rw [hsum] at h8
  unfold KerPieces.accOut
  rw [pay1_col0, pay1_col1, pay1_col2, h6, h7, h8]
  exact Cert.Spec.rowState_step S l n _ _ _ h _ hs

/-- The accumulator after a row block's first tile: the fresh accumulator, updated. -/
theorem acc_A (c : Dev nD) (t : Fin cfg0.N) (h0 : t.val % 125 = 0) :
    acc m c t.val t.isLt
      = KerPieces.accOut (grid0.coords t) (xblk m c t) (wblk m c t) (lblk m c t) (k0_pay3 (F := Ideal)) := by
  have h1 : ¬t.val % 125 = 124 := by omega
  show (outsAt0 m c t.val t.isLt).2 = _
  rw [outsAt0_A m c t h0 h1]
  dsimp only
  exact KerPieces.sout_A (F := Ideal) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) (iblk m c 0 t) (iblk m c 1 t) (iblk m c 2 t)

/-- The accumulator after any other tile: the previous point's accumulator, updated. -/
theorem acc_BC (c : Dev nD) (t : Fin cfg0.N) (h0 : ¬t.val % 125 = 0) :
    acc m c t.val t.isLt
      = KerPieces.accOut (grid0.coords t) (xblk m c t) (wblk m c t) (lblk m c t)
          (acc m c (t.val - 1) (Nat.lt_of_le_of_lt (Nat.sub_le _ _) t.isLt)) := by
  show (outsAt0 m c t.val t.isLt).2 = _
  by_cases h1 : t.val % 125 = 124
  · rw [outsAt0_C m c t h0 h1]
    dsimp only
    exact KerPieces.sout_C (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2
  · rw [outsAt0_B m c t h0 h1]
    dsimp only
    exact KerPieces.sout_B (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2

/-- The fresh accumulator is the state before the first tile. -/
theorem fresh_state (S : ℕ → ℝ) (l : ℕ) (p : Fin 1024) :
    Cert.Spec.RowState S l 0 (k0_pay3 (F := Ideal) (ix2 p 0)) (k0_pay3 (F := Ideal) (ix2 p 1)) (k0_pay3 (F := Ideal) (ix2 p 2)) := by
  rw [KerPay.pay3_apply, KerPay.pay3_apply, KerPay.pay3_apply, if_pos val0,
    if_neg (show ¬((1 : Fin 128) : ℕ) = 0 by decide), if_neg (show ¬((2 : Fin 128) : ℕ) = 0 by decide)]
  exact Cert.Spec.rowState_zero S l

/-- A row's log-sum-exp over its sequence of logits is the one over the vocabulary. -/
theorem Srow_sum (r : Fin 4096) :
    ∑ j ∈ Finset.range 32000, Real.exp (Srow X W r j) = ∑ j : Fin 32000, Real.exp (Cert.Spec.logit X W r j) := by
  rw [Finset.sum_range]
  refine Finset.sum_congr rfl fun j _ => ?_
  unfold Srow; rw [dif_pos j.isLt]

section Inv

variable (c : Dev nD)
  (hX : ∀ (r h : Fin 4096), xarr m c (ix2 r h) = ((X r h : ℝ) : EReal))
  (hW : ∀ (j : Fin 32000) (h : Fin 4096), warr m c (ix2 j h) = ((W j h : ℝ) : EReal))
  (hL : ∀ r : Fin 4096, larr m c (ix2 r 0) = BitVec.ofNat 32 (lab r).val)

include hX hW hL

/-- One point, one row: from the state after `n = t % 125` tiles to the state after `n + 1`. -/
theorem point_step (t : Fin cfg0.N) (a : Vec Ideal S1024x128 .f32) (p : Fin 1024)
    (h : Cert.Spec.RowState (Srow X W (rowIx t p)) (lab (rowIx t p)).val (t.val % 125)
      (a (ix2 p 0)) (a (ix2 p 1)) (a (ix2 p 2))) :
    Cert.Spec.RowState (Srow X W (rowIx t p)) (lab (rowIx t p)).val (t.val % 125 + 1)
      (KerPieces.accOut (grid0.coords t) (xblk m c t) (wblk m c t) (lblk m c t) a (ix2 p 0))
      (KerPieces.accOut (grid0.coords t) (xblk m c t) (wblk m c t) (lblk m c t) a (ix2 p 1))
      (KerPieces.accOut (grid0.coords t) (xblk m c t) (wblk m c t) (lblk m c t) a (ix2 p 2)) :=
  accOut_row (grid0.coords t) (xblk m c t) (wblk m c t) (lblk m c t) a p _ _ (t.val % 125)
    (idx_facts t).2.2.2.2.2.2.2.2 (Nat.mod_lt _ (by decide)) (lab (rowIx t p)).isLt
    (fun q => tile_logit m X W c t hX hW p q)
    (by rw [lblk_apply, hL]) h

/-- THE INVARIANT: after point `n` every row of the accumulator is in the state after `n % 125 + 1` tiles of its
    row's logits. -/
theorem acc_inv : ∀ (n : ℕ) (hn : n < cfg0.N) (p : Fin 1024),
    Cert.Spec.RowState (Srow X W (rowIx ⟨n, hn⟩ p)) (lab (rowIx ⟨n, hn⟩ p)).val (n % 125 + 1)
      (acc m c n hn (ix2 p 0)) (acc m c n hn (ix2 p 1)) (acc m c n hn (ix2 p 2)) := by
  intro n
  induction n with
  | zero =>
    intro hn p
    rw [acc_A m c ⟨0, hn⟩ rfl]
    exact point_step m X W lab c hX hW hL ⟨0, hn⟩ _ p (fresh_state _ _ p)
  | succ n ih =>
    intro hn p
    by_cases h0 : (n + 1) % 125 = 0
    · rw [acc_A m c ⟨n + 1, hn⟩ h0]
      have hs := point_step m X W lab c hX hW hL ⟨n + 1, hn⟩ _ p
        (by show Cert.Spec.RowState _ _ ((n + 1) % 125) _ _ _; rw [h0]; exact fresh_state _ _ p)
      exact hs
    · rw [acc_BC m c ⟨n + 1, hn⟩ h0]
      have hprev := ih (Nat.lt_of_succ_lt hn) p
      have hrow : rowIx ⟨n, Nat.lt_of_succ_lt hn⟩ p = rowIx ⟨n + 1, hn⟩ p := by
        apply Fin.ext; show 1024 * (n / 125) + p.val = 1024 * ((n + 1) / 125) + p.val; omega
      rw [hrow, show n % 125 + 1 = (n + 1) % 125 by omega] at hprev
      exact point_step m X W lab c hX hW hL ⟨n + 1, hn⟩ _ p hprev

/-- At a row block's last tile the stored block is the rows' log-probabilities. -/
theorem out_row (t : Fin cfg0.N) (h1 : t.val % 125 = 124) (p : Fin 1024) :
    (outsAt0 m c t.val t.isLt).1 (ix2 p 0) = ((Cert.Spec.tokLogp X W lab (rowIx t p) : ℝ) : EReal) := by
  have h0 : ¬t.val % 125 = 0 := by omega
  have hinv := acc_inv m X W lab c hX hW hL t.val t.isLt p
  rw [h1] at hinv
  have hfin := Cert.Spec.rowState_final _ _ (lab (rowIx t p)).isLt _ _ _ hinv
  have hacc := acc_BC m c t h0
  rw [outsAt0_C m c t h0 h1]
  dsimp only
  rw [KerPieces.out_C (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2]
  rw [KerPay.pay2_apply]
  have c0 := congrFun hacc (ix2 p 0)
  have c1 := congrFun hacc (ix2 p 1)
  have c2 := congrFun hacc (ix2 p 2)
  unfold KerPieces.accOut at c0 c1 c2
  rw [pay1_col0] at c0
  rw [pay1_col1] at c1
  rw [pay1_col2] at c2
  rw [← c0, ← c1, ← c2]
  rw [show (⟨t.val, t.isLt⟩ : Fin cfg0.N) = t from rfl] at hfin
  rw [hfin, Srow_sum]
  unfold Cert.Spec.tokLogp Srow
  rw [dif_pos (lab (rowIx t p)).isLt]

/-- The output array after the run: every row's log-probability. -/
def G : Buf (Elt Ideal) ((c : Thread nD τ).loc main_v7) :=
  fun i => ((Cert.Spec.tokLogp X W lab ⟨(i 0).val, (i 0).isLt⟩ : ℝ) : EReal)

theorem flushed_eq (t : Fin cfg0.N) (hf : (cfg0.win 3).flush t = true) :
    (dats m 0 c).flushed 3 t = ((cfg0.win 3).blk t).view.read (Elt Ideal) (G X W lab c) := by
  have h1 : t.val % 125 = 124 := (flush0_3 t).mp hf
  obtain ⟨-, -, -, -, -, -, e0, e1, -⟩ := idx_facts t
  show (cfg0.win 3).cut (grid0.coords t) ((dats m 0 c).after 3 t) = _
  rw [after0_3]
  funext j
  obtain ⟨p, rfl⟩ : ∃ p : Fin 1024, j = ix2 p 0 :=
    ⟨⟨(j 0).val, (j 0).isLt⟩, by
      funext a
      match a with
      | ⟨0, _⟩ => rfl
      | ⟨1, _⟩ => exact Fin.ext (by have hj : (j 1).val < 1 := (j 1).isLt; show (j 1).val = 0; omega)⟩
  show (outsAt0 m c t.val t.isLt).1 (ix2 p 0) = G X W lab c (((cfg0.win 3).blk t).view.emb (ix2 p 0))
  rw [out_row m X W lab c hX hW hL t h1 p]
  unfold G
  congr 3
  apply Fin.ext
  show 1024 * (t.val / 125) + p.val = win0_3.index t 0 * 1024 + 1 * p.val
  rw [e0]; omega

/-- So the output array ends at the rows' log-probabilities: the last tile of row block `r / 1024` covers row `r`. -/
theorem final_out : (dats m 0 c).arrAt 3 cfg0.N = G X W lab c :=
  (dats m 0 c).arrAt_eq_of_cover 3 (G X W lab c) (flushed_eq m X W lab c hX hW hL) fun i => by
    have hi0 : (i 0).val < 4096 := (i 0).isLt
    have hi1 : (i 1).val < 1 := (i 1).isLt
    have hN := N500
    let t : Fin cfg0.N := ⟨125 * ((i 0).val / 1024) + 124, by omega⟩
    have ht : t.val % 125 = 124 := by show (125 * ((i 0).val / 1024) + 124) % 125 = 124; omega
    obtain ⟨-, -, -, -, -, -, e0, e1, -⟩ := idx_facts t
    have hdiv : t.val / 125 = (i 0).val / 1024 := by show (125 * ((i 0).val / 1024) + 124) / 125 = _; omega
    refine ⟨t, (flush0_3 t).mpr ht, ?_⟩
    rw [mem_blk]
    intro a
    match a with
    | ⟨0, _⟩ => show win0_3.index t 0 * 1024 ≤ (i 0).val ∧ (i 0).val < win0_3.index t 0 * 1024 + 1024; rw [e0, hdiv]; omega
    | ⟨1, _⟩ => show win0_3.index t 1 * 1 ≤ (i 1).val ∧ (i 1).val < win0_3.index t 1 * 1 + 1; rw [e1]; omega

end Inv

end Values

end Cert.KernelIdeal.KerValue

end
-- ==== Proof.KerFinal.lean ====
/-
  The kernel's run with its result named: with real inputs and labels inside the vocabulary, every weakly fair
  execution ends with the result at the loss of the per-token log-probabilities and the not-ignored mask, and the
  arguments unchanged.
-/
import proofs.«430064_j67920612819621_3_alg».proof.Proof.KerHost
import proofs.«430064_j67920612819621_3_alg».proof.Proof.KerValue

set_option maxRecDepth 16384

noncomputable section

namespace Cert.KernelIdeal.KerFinal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The per-token log-probabilities as an [8, 512] array. -/
def tokArr (X : Fin 4096 → Fin 4096 → ℝ) (W : Fin 32000 → Fin 4096 → ℝ) (lab : Fin 4096 → Fin 32000) : FVec Ideal S8x512 .f32 :=
  fun i => ((Cert.Spec.tokLogp X W lab (Cert.Spec.rowOf ⟨(i 0).val, (i 0).isLt⟩ ⟨(i 1).val, (i 1).isLt⟩) : ℝ) : EReal)

/-- The mask of the targets that are not the ignore index, as zeros and ones. -/
def maskArr (a2 : IVec S8x512 32) : FVec Ideal S8x512 .f32 :=
  uitofp .f32 (fun i => IntOp.cmpi .ne (a2 i) 4294967196#32)

theorem row_seq_tok (r : Fin 4096) : Cert.Spec.rowOf (KerHost.seqOf r) (KerHost.tokOf r) = r := by
  apply Fin.ext
  show r.val / 512 * 512 + r.val % 512 = r.val
  have := Nat.div_add_mod r.val 512; omega

theorem run (X : Fin 4096 → Fin 4096 → ℝ) (W : Fin 32000 → Fin 4096 → ℝ) (lab : Fin 4096 → Fin 32000)
    (hX : ∀ (b : Fin 8) (t : Fin 512) (h : Fin 4096),
      m (((0 : Dev nD) : Thread nD τ).loc main_arg0) (ix3 b t h) = ((X (Cert.Spec.rowOf b t) h : ℝ) : EReal))
    (hW : ∀ (j : Fin 32000) (h : Fin 4096), m (((0 : Dev nD) : Thread nD τ).loc main_arg1) (ix2 j h) = ((W j h : ℝ) : EReal))
    (hL : ∀ (b : Fin 8) (t : Fin 512),
      Scalar.select (IntOp.cmpi .ne (m (((0 : Dev nD) : Thread nD τ).loc main_arg2) (ix2 b t)) 4294967196#32)
        (m (((0 : Dev nD) : Thread nD τ).loc main_arg2) (ix2 b t)) 0#32 = BitVec.ofNat 32 (lab (Cert.Spec.rowOf b t)).val) :
    θ_run defs (onTc (τ := τ) (main (F := Ideal))) ⟨m, fun _ => 0, ρ⟩ (fun r => ∀ c : Dev nD,
      r.2.mem ((c.tc : Thread nD τ).loc main_v21)
        = KerHost.lossCore (tokArr X W lab) (maskArr (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_,
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩)
    (run_main m ρ)
  obtain rfl : c = 0 := Subsingleton.elim _ _
  have hX' : ∀ (r h : Fin 4096), KerValue.xarr m 0 (ix2 r h) = ((X r h : ℝ) : EReal) := fun r h => by
    show (V m 0 main_v1 : Vec Ideal S4096x4096 .bf16) (ix2 r h) = _
    rw [KerHost.x_apply, hX, row_seq_tok]
  have hW' : ∀ (j : Fin 32000) (h : Fin 4096), KerValue.warr m 0 (ix2 j h) = ((W j h : ℝ) : EReal) := fun j h => by
    show (V m 0 main_arg1) (ix2 j h) = _
    rw [V_main_arg1]; exact hW j h
  have hL' : ∀ r : Fin 4096, KerValue.larr m 0 (ix2 r 0) = BitVec.ofNat 32 (lab r).val := fun r => by
    show (V m 0 main_v6 : Vec Ideal S4096x1 .i32) (ix2 r 0) = _
    rw [KerHost.lab_apply, hL, row_seq_tok]
  have hv := (h 0).2 main_v21 (Pipeline.mem_restRefs_of main_v21 (by decide) (by decide))
  rw [hv, KerHost.tail_eq m 0, KerValue.final_out m X W lab 0 hX' hW' hL']
  unfold KerHost.lossOf
  congr 1
  · funext i
    obtain ⟨b, t, rfl⟩ : ∃ (b : Fin 8) (t : Fin 512), i = ix2 b t := ⟨i 0, i 1, eq_ix2 i⟩
    exact (KerHost.out_apply (F := Ideal) (KerValue.G X W lab 0) b t).trans rfl
  · funext i
    obtain ⟨b, t, rfl⟩ : ∃ (b : Fin 8) (t : Fin 512), i = ix2 b t := ⟨i 0, i 1, eq_ix2 i⟩
    show FloatOps.uitofp .f32 (shapeCast S8x512 (KerHost.maskOf _) shapeCasts_S4096_S8x512 (ix2 b t)) = _
    exact congrArg (FloatOps.uitofp (F := Ideal) .f32) (KerHost.mask_apply _ b t)

end Cert.KernelIdeal.KerFinal

end
-- ==== Proof.RefRun.lean ====
/-
  The reference's run: every weakly fair execution of its 63 host operations terminates with the result at the
  last stage's value of the arguments, the arguments unchanged.
-/
import proofs.«430064_j67920612819621_3_alg».proof.Proof.RefRunOps
import proofs.«430064_j67920612819621_3_alg».proof.Proof.RefRead
import Idealize.ShloMosaic.Lib.StableHlo.Run
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-!
  The 63 operations of @main are cut in four consecutive stretches: the contraction and the log-softmax (ending at the
  log-probabilities), the mask and the label column, the gather with its index arithmetic and range test (ending at the
  gathered column), and the masked averages with the final scaling. Each stretch is read over an arbitrary valuation of
  the buffers, as the stage functions of the reference applied to what the valuation holds at the stretch's inputs; the
  four readings compose to the last stage of the reference applied to the three arguments.
-/

/-! ## The third and fourth stretches as functions of their inputs -/

/-- The label column with a negative entry wrapped around the vocabulary. -/
def wrapped (y5 : (⟨S8x512x1, .i32⟩ : BufTy).Contents (Elt F)) : (⟨S8x512x1, .i32⟩ : BufTy).Contents (Elt F) :=
  select (cmpi .slt y5 (ReadP.val_main_call2_v0 (F := F))) (addi y5 (ReadP.val_main_call2_v2 (F := F))) y5

/-- The start indices of the gather: the wrapped column with a unit index-vector axis. -/
def starts (y5 : (⟨S8x512x1, .i32⟩ : BufTy).Contents (Elt F)) : (⟨S8x512x1x1, .i32⟩ : BufTy).Contents (Elt F) :=
  shapeCast _ (wrapped y5) shapeCasts_S8x512x1_S8x512x1x1

/-- The range test: every start index is between zero and the last vocabulary entry. -/
def inRange (y5 : (⟨S8x512x1, .i32⟩ : BufTy).Contents (Elt F)) : (⟨S8x512x1, .i1⟩ : BufTy).Contents (Elt F) :=
  Host.reduce IntOp.andi
    (andi (cmpi .sge (starts y5) (ReadP.val_main_call2_v6 (F := F))) (cmpi .sle (starts y5) (ReadP.val_main_call2_v9 (F := F))))
    (ReadP.val_main_call2_c_3 (F := F)) reducesTo_S8x512x1x1_S8x512x1_d3 h_S_

/-- The gathered column: the log-probabilities `y1` at the label column `y5`, not-a-number where the index is out of range. -/
def G6 (y1 : (⟨S8x512x32000, .f32⟩ : BufTy).Contents (Elt F)) (y5 : (⟨S8x512x1, .i32⟩ : BufTy).Contents (Elt F)) :
    (⟨S8x512x1, .f32⟩ : BufTy).Contents (Elt F) :=
  select (inRange y5) (Host.gather gather_S8x512x32000_S8x512x1x1_S8x512x1_n_2_01_01_2_3_111 y1 (starts y5))
    (ReadP.val_main_call2_v14 (F := F))

/-- The average per sequence of the gathered values `y6` over the mask `y3`. -/
def seqAvg (y6 : (⟨S8x512x1, .f32⟩ : BufTy).Contents (Elt F)) (y3 : (⟨S8x512, .i1⟩ : BufTy).Contents (Elt F)) :
    (⟨S8, .f32⟩ : BufTy).Contents (Elt F) :=
  Host.divf
    (Host.reduceAdd (mulf (shapeCast _ y6 shapeCasts_S8x512x1_S8x512) (uitofp .f32 y3)) (ReadP.val_main_cst (F := F)) reducesTo_S8x512_S8_d1 h_S_)
    (Host.reduceAdd (uitofp .f32 y3) (ReadP.val_main_cst_1 (F := F)) reducesTo_S8x512_S8_d1 h_S_)

/-- The loss: the first four averages less the last four, their mean, scaled. -/
def T18 (y6 : (⟨S8x512x1, .f32⟩ : BufTy).Contents (Elt F)) (y3 : (⟨S8x512, .i1⟩ : BufTy).Contents (Elt F)) :
    (⟨S_, .f32⟩ : BufTy).Contents (Elt F) :=
  mulf (ReadP.val_main_cst_4 (F := F))
    (Host.divf
      (Host.reduceAdd
        (subf (extractStridedSlice S4 ![0] (seqAvg y6 y3) slices_S8_S4_0) (extractStridedSlice S4 ![4] (seqAvg y6 y3) slices_S8_S4_4))
        (ReadP.val_main_cst_2 (F := F)) reducesTo_S4_S_d0 h_S_)
      (ReadP.val_main_cst_3 (F := F)))

/-- The gathered column of the reference's log-probabilities at its label column is the reference's stage. -/
theorem G6_eq (x0 : (⟨S8x512x4096, .f32⟩ : BufTy).Contents (Elt F)) (x1 : (⟨S32000x4096, .f32⟩ : BufTy).Contents (Elt F))
    (x2 : (⟨S8x512, .i32⟩ : BufTy).Contents (Elt F)) :
    G6 (ReadP.val_main_v1 (F := F) x0 x1) (ReadP.val_main_v5 (F := F) x2) = ReadP.val_main_v6 (F := F) x0 x1 x2 := rfl

/-- The loss of the reference's gathered column and mask is the reference's last stage. -/
theorem T18_eq (x0 : (⟨S8x512x4096, .f32⟩ : BufTy).Contents (Elt F)) (x1 : (⟨S32000x4096, .f32⟩ : BufTy).Contents (Elt F))
    (x2 : (⟨S8x512, .i32⟩ : BufTy).Contents (Elt F)) :
    T18 (ReadP.val_main_v6 (F := F) x0 x1 x2) (ReadP.val_main_v3 (F := F) x2) = ReadP.val_main_v18 (F := F) x0 x1 x2 := rfl

section Cut

/- Two spellings of one operation, and a stretch's composed term and a stage function, are the same operations applied to the
   same operands: they are compared as such, never by what an operation computes. -/
attribute [local irreducible] Host.reduce Host.reduceAdd Host.gather Host.exp Host.log Host.divf shapeCast
  broadcastInDim extractStridedSlice constant constantI cmpi select addi andi subf mulf maximumf uitofp

/-! ## The four stretches -/

/-- Operations 1 to 16: the contraction and the log-softmax over the vocabulary, ending at the log-probabilities. -/
abbrev ops1 : List (HloOp τ sig (Elt F)) :=
  [ binary main_arg0 main_arg1 main_v0 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    nullary main_call0_cst ((constant S_ .f32 0xFF800000#32) : (⟨S_, .f32⟩ : BufTy).Contents (Elt F)),
    binary main_v0 main_call0_cst main_call0_v0 ((fun x v => Host.reduce FloatOps.maximumf x v reducesTo_S8x512x32000_S8x512_d2 h_S_) : (⟨S8x512x32000, .f32⟩ : BufTy).Contents (Elt F) → (⟨S_, .f32⟩ : BufTy).Contents (Elt F) → (⟨S8x512, .f32⟩ : BufTy).Contents (Elt F)),
    nullary main_call0_cst_0 ((constant S_ .f32 0xFF800000#32) : (⟨S_, .f32⟩ : BufTy).Contents (Elt F)),
    unary main_call0_cst_0 main_call0_v1 ((broadcastInDim S8x512 ![] bcast_S_S8x512) : (⟨S_, .f32⟩ : BufTy).Contents (Elt F) → (⟨S8x512, .f32⟩ : BufTy).Contents (Elt F)),
    binary main_call0_v1 main_call0_v0 main_call0_v2 (maximumf : (⟨S8x512, .f32⟩ : BufTy).Contents (Elt F) → (⟨S8x512, .f32⟩ : BufTy).Contents (Elt F) → (⟨S8x512, .f32⟩ : BufTy).Contents (Elt F)),
    unary main_call0_v2 main_call0_v3 ((broadcastInDim S8x512x1 ![0, 1] bcast_S8x512_S8x512x1_0_1) : (⟨S8x512, .f32⟩ : BufTy).Contents (Elt F) → (⟨S8x512x1, .f32⟩ : BufTy).Contents (Elt F)),
    unary main_call0_v3 main_call0_v4 ((broadcastInDim S8x512x32000 ![0, 1, 2] bcast_S8x512x1_S8x512x32000_0_1_2) : (⟨S8x512x1, .f32⟩ : BufTy).Contents (Elt F) → (⟨S8x512x32000, .f32⟩ : BufTy).Contents (Elt F)),
    binary main_v0 main_call0_v4 main_call0_v5 (subf : (⟨S8x512x32000, .f32⟩ : BufTy).Contents (Elt F) → (⟨S8x512x32000, .f32⟩ : BufTy).Contents (Elt F) → (⟨S8x512x32000, .f32⟩ : BufTy).Contents (Elt F)),
    unary main_call0_v5 main_call0_v6 (Host.exp : (⟨S8x512x32000, .f32⟩ : BufTy).Contents (Elt F) → (⟨S8x512x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S8x512x32000_S8x512_d2 h_S_) : (⟨S8x512x32000, .f32⟩ : BufTy).Contents (Elt F) → (⟨S_, .f32⟩ : BufTy).Contents (Elt F) → (⟨S8x512, .f32⟩ : BufTy).Contents (Elt F)),
    unary main_call0_v7 main_call0_v8 ((broadcastInDim S8x512x1 ![0, 1] bcast_S8x512_S8x512x1_0_1) : (⟨S8x512, .f32⟩ : BufTy).Contents (Elt F) → (⟨S8x512x1, .f32⟩ : BufTy).Contents (Elt F)),
    unary main_call0_v8 main_call0_v9 (Host.log : (⟨S8x512x1, .f32⟩ : BufTy).Contents (Elt F) → (⟨S8x512x1, .f32⟩ : BufTy).Contents (Elt F)),
    unary main_call0_v9 main_call0_v10 ((broadcastInDim S8x512x32000 ![0, 1, 2] bcast_S8x512x1_S8x512x32000_0_1_2) : (⟨S8x512x1, .f32⟩ : BufTy).Contents (Elt F) → (⟨S8x512x32000, .f32⟩ : BufTy).Contents (Elt F)),
    binary main_call0_v5 main_call0_v10 main_v1 (subf : (⟨S8x512x32000, .f32⟩ : BufTy).Contents (Elt F) → (⟨S8x512x32000, .f32⟩ : BufTy).Contents (Elt F) → (⟨S8x512x32000, .f32⟩ : BufTy).Contents (Elt F)) ]

/-- Operations 17 to 24: the mask of the targets that are not the ignore index, the label, and the label as a column. -/
abbrev ops2 : List (HloOp τ sig (Elt F)) :=
  [ nullary main_c (constantI S_ 32 4294967196#32),
    unary main_c main_v2 (broadcastInDim S8x512 ![] bcast_S_S8x512 : (⟨S_, .i32⟩ : BufTy).Contents (Elt F) → (⟨S8x512, .i32⟩ : BufTy).Contents (Elt F)),
    binary main_arg2 main_v2 main_v3 (cmpi .ne : (⟨S8x512, .i32⟩ : BufTy).Contents (Elt F) → (⟨S8x512, .i32⟩ : BufTy).Contents (Elt F) → (⟨S8x512, .i1⟩ : BufTy).Contents (Elt F)),
    nullary main_c_0 (constantI S_ 32 0#32),
    unary main_c_0 main_call1_v0 (id : (⟨S_, .i32⟩ : BufTy).Contents (Elt F) → (⟨S_, .i32⟩ : BufTy).Contents (Elt F)),
    unary main_call1_v0 main_call1_v1 ((broadcastInDim S8x512 ![] bcast_S_S8x512) : (⟨S_, .i32⟩ : BufTy).Contents (Elt F) → (⟨S8x512, .i32⟩ : BufTy).Contents (Elt F)),
    ternary main_v3 main_arg2 main_call1_v1 main_v4 (select : (⟨S8x512, .i1⟩ : BufTy).Contents (Elt F) → (⟨S8x512, .i32⟩ : BufTy).Contents (Elt F) → (⟨S8x512, .i32⟩ : BufTy).Contents (Elt F) → (⟨S8x512, .i32⟩ : BufTy).Contents (Elt F)),
    unary main_v4 main_v5 (broadcastInDim S8x512x1 ![0, 1] bcast_S8x512_S8x512x1_0_1 : (⟨S8x512, .i32⟩ : BufTy).Contents (Elt F) → (⟨S8x512x1, .i32⟩ : BufTy).Contents (Elt F)) ]

/-- Operations 25 to 46: the gather along the vocabulary at the label, with the wrap of negative indices, the range test and the select on it. -/
abbrev ops3 : List (HloOp τ sig (Elt F)) :=
  [ nullary main_call2_c ((constantI S_ 32 0#32) : (⟨S_, .i32⟩ : BufTy).Contents (Elt F)),
    unary main_call2_c main_call2_v0 ((broadcastInDim S8x512x1 ![] bcast_S_S8x512x1) : (⟨S_, .i32⟩ : BufTy).Contents (Elt F) → (⟨S8x512x1, .i32⟩ : BufTy).Contents (Elt F)),
    binary main_v5 main_call2_v0 main_call2_v1 ((cmpi .slt) : (⟨S8x512x1, .i32⟩ : BufTy).Contents (Elt F) → (⟨S8x512x1, .i32⟩ : BufTy).Contents (Elt F) → (⟨S8x512x1, .i1⟩ : BufTy).Contents (Elt F)),
    nullary main_call2_c_0 ((constantI S_ 32 32000#32) : (⟨S_, .i32⟩ : BufTy).Contents (Elt F)),
    unary main_call2_c_0 main_call2_v2 ((broadcastInDim S8x512x1 ![] bcast_S_S8x512x1) : (⟨S_, .i32⟩ : BufTy).Contents (Elt F) → (⟨S8x512x1, .i32⟩ : BufTy).Contents (Elt F)),
    binary main_v5 main_call2_v2 main_call2_v3 (addi : (⟨S8x512x1, .i32⟩ : BufTy).Contents (Elt F) → (⟨S8x512x1, .i32⟩ : BufTy).Contents (Elt F) → (⟨S8x512x1, .i32⟩ : BufTy).Contents (Elt F)),
    ternary main_call2_v1 main_call2_v3 main_v5 main_call2_v4 (select : (⟨S8x512x1, .i1⟩ : BufTy).Contents (Elt F) → (⟨S8x512x1, .i32⟩ : BufTy).Contents (Elt F) → (⟨S8x512x1, .i32⟩ : BufTy).Contents (Elt F) → (⟨S8x512x1, .i32⟩ : BufTy).Contents (Elt F)),
    reshape main_call2_v4 main_call2_v5 rfl shapeCasts_S8x512x1_S8x512x1x1,
    nullary main_call2_c_1 ((constantI S1 32 31999#32) : (⟨S1, .i32⟩ : BufTy).Contents (Elt F)),
    nullary main_call2_c_2 ((constantI S_ 32 0#32) : (⟨S_, .i32⟩ : BufTy).Contents (Elt F)),
    unary main_call2_c_2 main_call2_v6 ((broadcastInDim S8x512x1x1 ![] bcast_S_S8x512x1x1) : (⟨S_, .i32⟩ : BufTy).Contents (Elt F) → (⟨S8x512x1x1, .i32⟩ : BufTy).Contents (Elt F)),
    binary main_call2_v5 main_call2_v6 main_call2_v7 ((cmpi .sge) : (⟨S8x512x1x1, .i32⟩ : BufTy).Contents (Elt F) → (⟨S8x512x1x1, .i32⟩ : BufTy).Contents (Elt F) → (⟨S8x512x1x1, .i1⟩ : BufTy).Contents (Elt F)),
    unary main_call2_c_1 main_call2_v8 ((broadcastInDim S1x1x1x1 ![3] bcast_S1_S1x1x1x1_3) : (⟨S1, .i32⟩ : BufTy).Contents (Elt F) → (⟨S1x1x1x1, .i32⟩ : BufTy).Contents (Elt F)),
    unary main_call2_v8 main_call2_v9 ((broadcastInDim S8x512x1x1 ![0, 1, 2, 3] bcast_S1x1x1x1_S8x512x1x1_0_1_2_3) : (⟨S1x1x1x1, .i32⟩ : BufTy).Contents (Elt F) → (⟨S8x512x1x1, .i32⟩ : BufTy).Contents (Elt F)),
    binary main_call2_v5 main_call2_v9 main_call2_v10 ((cmpi .sle) : (⟨S8x512x1x1, .i32⟩ : BufTy).Contents (Elt F) → (⟨S8x512x1x1, .i32⟩ : BufTy).Contents (Elt F) → (⟨S8x512x1x1, .i1⟩ : BufTy).Contents (Elt F)),
    binary main_call2_v7 main_call2_v10 main_call2_v11 (andi : (⟨S8x512x1x1, .i1⟩ : BufTy).Contents (Elt F) → (⟨S8x512x1x1, .i1⟩ : BufTy).Contents (Elt F) → (⟨S8x512x1x1, .i1⟩ : BufTy).Contents (Elt F)),
    nullary main_call2_c_3 ((constantI S_ 1 1#1) : (⟨S_, .i1⟩ : BufTy).Contents (Elt F)),
    binary main_call2_v11 main_call2_c_3 main_call2_v12 ((fun x v => Host.reduce IntOp.andi x v reducesTo_S8x512x1x1_S8x512x1_d3 h_S_) : (⟨S8x512x1x1, .i1⟩ : BufTy).Contents (Elt F) → (⟨S_, .i1⟩ : BufTy).Contents (Elt F) → (⟨S8x512x1, .i1⟩ : BufTy).Contents (Elt F)),
    binary main_v1 main_call2_v5 main_call2_v13 ((fun x i => Host.gather gather_S8x512x32000_S8x512x1x1_S8x512x1_n_2_01_01_2_3_111 x i) : (⟨S8x512x32000, .f32⟩ : BufTy).Contents (Elt F) → (⟨S8x512x1x1, .i32⟩ : BufTy).Contents (Elt F) → (⟨S8x512x1, .f32⟩ : BufTy).Contents (Elt F)),
    nullary main_call2_cst ((constant S_ .f32 0x7FC00000#32) : (⟨S_, .f32⟩ : BufTy).Contents (Elt F)),
    unary main_call2_cst main_call2_v14 ((broadcastInDim S8x512x1 ![] bcast_S_S8x512x1) : (⟨S_, .f32⟩ : BufTy).Contents (Elt F) → (⟨S8x512x1, .f32⟩ : BufTy).Contents (Elt F)),
    ternary main_call2_v12 main_call2_v13 main_call2_v14 main_v6 (select : (⟨S8x512x1, .i1⟩ : BufTy).Contents (Elt F) → (⟨S8x512x1, .f32⟩ : BufTy).Contents (Elt F) → (⟨S8x512x1, .f32⟩ : BufTy).Contents (Elt F) → (⟨S8x512x1, .f32⟩ : BufTy).Contents (Elt F)) ]

/-- Operations 47 to 63: the gathered column as [8, 512], the masked average per sequence, the difference of the two halves, its mean and the scaling. -/
abbrev ops4 : List (HloOp τ sig (Elt F)) :=
  [ reshape main_v6 main_v7 rfl shapeCasts_S8x512x1_S8x512,
    unary main_v3 main_v8 (uitofp .f32 : (⟨S8x512, .i1⟩ : BufTy).Contents (Elt F) → (⟨S8x512, .f32⟩ : BufTy).Contents (Elt F)),
    binary main_v7 main_v8 main_v9 (mulf : (⟨S8x512, .f32⟩ : BufTy).Contents (Elt F) → (⟨S8x512, .f32⟩ : BufTy).Contents (Elt F) → (⟨S8x512, .f32⟩ : BufTy).Contents (Elt F)),
    nullary main_cst (constant S_ .f32 0x00000000#32),
    binary main_v9 main_cst main_v10 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    nullary main_cst_1 (constant S_ .f32 0x00000000#32),
    binary main_v8 main_cst_1 main_v11 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    binary main_v10 main_v11 main_v12 (Host.divf : (⟨S8, .f32⟩ : BufTy).Contents (Elt F) → (⟨S8, .f32⟩ : BufTy).Contents (Elt F) → (⟨S8, .f32⟩ : BufTy).Contents (Elt F)),
    unary main_v12 main_v13 ((extractStridedSlice S4 ![0] · slices_S8_S4_0) : (⟨S8, .f32⟩ : BufTy).Contents (Elt F) → (⟨S4, .f32⟩ : BufTy).Contents (Elt F)),
    unary main_v12 main_v14 ((extractStridedSlice S4 ![4] · slices_S8_S4_4) : (⟨S8, .f32⟩ : BufTy).Contents (Elt F) → (⟨S4, .f32⟩ : BufTy).Contents (Elt F)),
    binary main_v13 main_v14 main_v15 (subf : (⟨S4, .f32⟩ : BufTy).Contents (Elt F) → (⟨S4, .f32⟩ : BufTy).Contents (Elt F) → (⟨S4, .f32⟩ : BufTy).Contents (Elt F)),
    nullary main_cst_2 (constant S_ .f32 0x00000000#32),
    binary main_v15 main_cst_2 main_v16 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_3 (constant S_ .f32 0x40800000#32),
    binary main_v16 main_cst_3 main_v17 (Host.divf : (⟨S_, .f32⟩ : BufTy).Contents (Elt F) → (⟨S_, .f32⟩ : BufTy).Contents (Elt F) → (⟨S_, .f32⟩ : BufTy).Contents (Elt F)),
    nullary main_cst_4 (constant S_ .f32 0xBDCCCCCD#32),
    binary main_cst_4 main_v17 main_v18 (mulf : (⟨S_, .f32⟩ : BufTy).Contents (Elt F) → (⟨S_, .f32⟩ : BufTy).Contents (Elt F) → (⟨S_, .f32⟩ : BufTy).Contents (Elt F)) ]

set_option maxRecDepth 16384 in
/-- The operations are the four stretches in a row (an operation of a called function, spelt over typed references, is the
    same operation over the references themselves). -/
theorem ops_split : (ops : List (HloOp τ sig (Elt F))) = ops1 ++ (ops2 ++ (ops3 ++ ops4)) := rfl

/-! ## Each stretch over an arbitrary valuation -/

section Stretches

variable (V : Valuation τ sig (Elt F))

set_option maxHeartbeats 3200000 in
/-- After the first stretch the log-probabilities are the reference's stage of the two float arguments. -/
theorem s1_v1 : after ops1 V (Proc.devRef .tc main_v1)
    = ReadP.val_main_v1 (F := F) (V (Proc.devRef .tc main_arg0)) (V (Proc.devRef .tc main_arg1)) := by
  unfold ops1
  after_results
  rfl
theorem s1_arg0 : after ops1 V (Proc.devRef .tc main_arg0) = V (Proc.devRef .tc main_arg0) := by
  unfold ops1
  after_results <;> rfl
theorem s1_arg1 : after ops1 V (Proc.devRef .tc main_arg1) = V (Proc.devRef .tc main_arg1) := by
  unfold ops1
  after_results <;> rfl
theorem s1_arg2 : after ops1 V (Proc.devRef .tc main_arg2) = V (Proc.devRef .tc main_arg2) := by
  unfold ops1
  after_results <;> rfl

/-- After the second stretch the mask is the reference's stage of the integer argument. -/
theorem s2_v3 : after ops2 V (Proc.devRef .tc main_v3) = ReadP.val_main_v3 (F := F) (V (Proc.devRef .tc main_arg2)) := by
  unfold ops2
  after_results
  rfl
/-- After the second stretch the label column is the reference's stage of the integer argument. -/
theorem s2_v5 : after ops2 V (Proc.devRef .tc main_v5) = ReadP.val_main_v5 (F := F) (V (Proc.devRef .tc main_arg2)) := by
  unfold ops2
  after_results
  rfl
theorem s2_v1 : after ops2 V (Proc.devRef .tc main_v1) = V (Proc.devRef .tc main_v1) := by
  unfold ops2
  after_results <;> rfl
theorem s2_arg0 : after ops2 V (Proc.devRef .tc main_arg0) = V (Proc.devRef .tc main_arg0) := by
  unfold ops2
  after_results <;> rfl
theorem s2_arg1 : after ops2 V (Proc.devRef .tc main_arg1) = V (Proc.devRef .tc main_arg1) := by
  unfold ops2
  after_results <;> rfl
theorem s2_arg2 : after ops2 V (Proc.devRef .tc main_arg2) = V (Proc.devRef .tc main_arg2) := by
  unfold ops2
  after_results <;> rfl

set_option maxHeartbeats 3200000 in
/-- After the third stretch the gathered column is `G6` of the log-probabilities and the label column. -/
theorem s3_v6 : after ops3 V (Proc.devRef .tc main_v6) = G6 (F := F) (V (Proc.devRef .tc main_v1)) (V (Proc.devRef .tc main_v5)) := by
  unfold ops3
  after_results
  rfl
theorem s3_v3 : after ops3 V (Proc.devRef .tc main_v3) = V (Proc.devRef .tc main_v3) := by
  unfold ops3
  after_results <;> rfl
theorem s3_arg0 : after ops3 V (Proc.devRef .tc main_arg0) = V (Proc.devRef .tc main_arg0) := by
  unfold ops3
  after_results <;> rfl
theorem s3_arg1 : after ops3 V (Proc.devRef .tc main_arg1) = V (Proc.devRef .tc main_arg1) := by
  unfold ops3
  after_results <;> rfl
theorem s3_arg2 : after ops3 V (Proc.devRef .tc main_arg2) = V (Proc.devRef .tc main_arg2) := by
  unfold ops3
  after_results <;> rfl

set_option maxHeartbeats 3200000 in
/-- After the fourth stretch the result is `T18` of the gathered column and the mask. -/
theorem s4_v18 : after ops4 V (Proc.devRef .tc main_v18) = T18 (F := F) (V (Proc.devRef .tc main_v6)) (V (Proc.devRef .tc main_v3)) := by
  unfold ops4
  after_results
  rfl
theorem s4_arg0 : after ops4 V (Proc.devRef .tc main_arg0) = V (Proc.devRef .tc main_arg0) := by
  unfold ops4
  after_results <;> rfl
theorem s4_arg1 : after ops4 V (Proc.devRef .tc main_arg1) = V (Proc.devRef .tc main_arg1) := by
  unfold ops4
  after_results <;> rfl
theorem s4_arg2 : after ops4 V (Proc.devRef .tc main_arg2) = V (Proc.devRef .tc main_arg2) := by
  unfold ops4
  after_results <;> rfl

end Stretches

/-! ## The stretches composed -/

section Composed

variable (V : Valuation τ sig (Elt F))

/-- After all the operations the result buffer holds the reference's last stage of the three arguments. -/
theorem after_v18 : after ops V (Proc.devRef .tc main_v18)
    = ReadP.val_main_v18 (F := F) (V (Proc.devRef .tc main_arg0)) (V (Proc.devRef .tc main_arg1)) (V (Proc.devRef .tc main_arg2)) := by
  rw [ops_split, StableHlo.after_append, StableHlo.after_append, StableHlo.after_append]
  rw [s4_v18, s3_v6, s3_v3, s2_v1, s2_v5, s2_v3, s1_v1, s1_arg2, G6_eq, T18_eq]
theorem after_arg0 : after ops V (Proc.devRef .tc main_arg0) = V (Proc.devRef .tc main_arg0) := by
  rw [ops_split, StableHlo.after_append, StableHlo.after_append, StableHlo.after_append, s4_arg0, s3_arg0, s2_arg0, s1_arg0]
theorem after_arg1 : after ops V (Proc.devRef .tc main_arg1) = V (Proc.devRef .tc main_arg1) := by
  rw [ops_split, StableHlo.after_append, StableHlo.after_append, StableHlo.after_append, s4_arg1, s3_arg1, s2_arg1, s1_arg1]
theorem after_arg2 : after ops V (Proc.devRef .tc main_arg2) = V (Proc.devRef .tc main_arg2) := by
  rw [ops_split, StableHlo.after_append, StableHlo.after_append, StableHlo.after_append, s4_arg2, s3_arg2, s2_arg2, s1_arg2]

end Composed

end Cut

/-! ## The run -/

set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = Cert.ReferenceIdeal.ReadP.val_main_v18 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v18).trans (after_v18 (launchContents m c)),
      (h c main_arg0).trans (after_arg0 (launchContents m c)),
      (h c main_arg1).trans (after_arg1 (launchContents m c)),
      (h c main_arg2).trans (after_arg2 (launchContents m c))⟩)
    (run_seq scopedRefs_eq scopedSems_eq defs main (fun _ => ops) main_eq (fun _ => ops_sub) m ρ)

end Cert.ReferenceIdeal.ValueP

end
-- ==== Proof.RefValue.lean ====
/-
  The reference's per-token log-probability read at a token: with real inputs and the label inside the
  vocabulary, entry (b, t) of the array the reference's loss is averaged from is the label's logit less the
  log-sum-exp of the token's logits.
-/
import proofs.«430064_j67920612819621_3_alg».proof.Proof.RefRead
import proofs.«430064_j67920612819621_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! ## Words and constants -/

/-- A word written from a natural below the vocabulary's size reads back, signed, as that natural. -/
private theorem toInt_ofNat_lt (n : Nat) (h : n < 32000) : (BitVec.ofNat 32 n).toInt = (n : Int) := by
  have h2 : n % 2 ^ 32 = n := Nat.mod_eq_of_lt (by omega)
  unfold BitVec.toInt
  rw [BitVec.toNat_ofNat, h2, if_pos (by omega)]

/-- A conjunction of ones, folded from one, is one. -/
private theorem fold_andi_one {ι : Type} (s : Finset ι) (f : ι → BitVec 1) (hf : ∀ i, f i = 1#1) :
    s.fold IntOp.andi 1#1 f = 1#1 := by
  classical
  induction s using Finset.induction_on with
  | empty => rfl
  | insert a s ha ih => rw [Finset.fold_insert ha, ih, hf a]; rfl

/-- The pattern of minus infinity is the bottom of the extended reals. -/
private theorem ofBits_negInf : Ideal.ofBits .f32 0xFF800000#32 = (⊥ : EReal) := by
  simp [Ideal.ofBits, Ideal.ieee]

/-! ## The gather: batching over (b, t), the start index the label's word -/

/-- Entry (b, t, 0) of the gather is the operand's entry (b, t, l) when the start index at (b, t, 0, 0) is the
    word of `l`, a vocabulary entry: the clamp into [0, 31999] leaves it. -/
private theorem gather_read {α : Type} (y : S8x512x32000.Idx → α) (idx : IVec S8x512x1x1 32) (b : Fin 8) (t : Fin 512)
    (l : Fin 32000) (hidx : idx (ix4 b t (0 : Fin 1) (0 : Fin 1)) = BitVec.ofNat 32 l.val) :
    Host.gather gather_S8x512x32000_S8x512x1x1_S8x512x1_n_2_01_01_2_3_111 y idx (ix3 b t (0 : Fin 1)) = y (ix3 b t l) := by
  unfold Host.gather
  congr 1
  funext a
  refine Fin.ext ?_
  match a with
  | ⟨0, _⟩ =>
    show gather_S8x512x32000_S8x512x1x1_S8x512x1_n_2_01_01_2_3_111.start (ix3 b t (0 : Fin 1)) idx 0
      + gather_S8x512x32000_S8x512x1x1_S8x512x1_n_2_01_01_2_3_111.batchCoord (ix3 b t (0 : Fin 1)) 0
      + gather_S8x512x32000_S8x512x1x1_S8x512x1_n_2_01_01_2_3_111.offCoord (ix3 b t (0 : Fin 1)) 0 = b.val
    rw [GatherDims.start_batching _ _ idx 0 (by decide), GatherDims.offCoord_eq_zero _ _ 0 (by decide), Nat.zero_add, Nat.add_zero]
    unfold GatherDims.batchCoord
    rw [dif_pos (by decide)]
    rfl
  | ⟨1, _⟩ =>
    show gather_S8x512x32000_S8x512x1x1_S8x512x1_n_2_01_01_2_3_111.start (ix3 b t (0 : Fin 1)) idx 1
      + gather_S8x512x32000_S8x512x1x1_S8x512x1_n_2_01_01_2_3_111.batchCoord (ix3 b t (0 : Fin 1)) 1
      + gather_S8x512x32000_S8x512x1x1_S8x512x1_n_2_01_01_2_3_111.offCoord (ix3 b t (0 : Fin 1)) 1 = t.val
    rw [GatherDims.start_batching _ _ idx 1 (by decide), GatherDims.offCoord_eq_zero _ _ 1 (by decide), Nat.zero_add, Nat.add_zero]
    unfold GatherDims.batchCoord
    rw [dif_pos (by decide)]
    rfl
  | ⟨2, _⟩ =>
    show gather_S8x512x32000_S8x512x1x1_S8x512x1_n_2_01_01_2_3_111.start (ix3 b t (0 : Fin 1)) idx 2
      + gather_S8x512x32000_S8x512x1x1_S8x512x1_n_2_01_01_2_3_111.batchCoord (ix3 b t (0 : Fin 1)) 2
      + gather_S8x512x32000_S8x512x1x1_S8x512x1_n_2_01_01_2_3_111.offCoord (ix3 b t (0 : Fin 1)) 2 = l.val
    rw [GatherDims.batchCoord_eq_zero _ _ 2 (by decide), GatherDims.offCoord_eq_zero _ _ 2 (by decide), Nat.add_zero]
    unfold GatherDims.start
    rw [dif_pos (by decide)]
    have hsi : gather_S8x512x32000_S8x512x1x1_S8x512x1_n_2_01_01_2_3_111.siIdx (ix3 b t (0 : Fin 1))
        ⟨List.idxOf (2 : Fin 3) gather_S8x512x32000_S8x512x1x1_S8x512x1_n_2_01_01_2_3_111.startIndexMap,
          List.idxOf_lt_length_iff.2 (by decide)⟩ = ix4 b t (0 : Fin 1) (0 : Fin 1) := by
      funext c; refine Fin.ext ?_
      match c with
      | ⟨0, _⟩ => rfl
      | ⟨1, _⟩ => rfl
      | ⟨2, _⟩ => rfl
      | ⟨3, _⟩ => rfl
    rw [hsi, hidx, toInt_ofNat_lt l.val l.isLt, Int.toNat_natCast]
    exact Nat.min_eq_left (by have := l.isLt; show l.val ≤ 32000 - 1; omega)

/-! ## The logits, their maximum, and the log-softmax -/

/-- Every logit the reference contracts is the real inner product of the token's row with the entry's weights. -/
private theorem logit_read (x0 : (⟨S8x512x4096, .f32⟩ : BufTy).Contents (Elt Ideal)) (x1 : (⟨S32000x4096, .f32⟩ : BufTy).Contents (Elt Ideal))
    (X : Fin 4096 → Fin 4096 → ℝ) (W : Fin 32000 → Fin 4096 → ℝ)
    (hX : ∀ (b : Fin 8) (t : Fin 512) (h : Fin 4096), x0 (ix3 b t h) = ((X (Cert.Spec.rowOf b t) h : ℝ) : EReal))
    (hW : ∀ (j : Fin 32000) (h : Fin 4096), x1 (ix2 j h) = ((W j h : ℝ) : EReal))
    (b : Fin 8) (t : Fin 512) (j : Fin 32000) :
    val_main_v0 (F := Ideal) x0 x1 (ix3 b t j) = ((Cert.Spec.logit X W (Cert.Spec.rowOf b t) j : ℝ) : EReal) := by
  rw [val_main_v0_apply]
  unfold Cert.Spec.logit
  rw [Cert.Spec.coe_sum]
  refine Finset.sum_congr rfl fun k _ => ?_
  have hl : lidx_main_v0 (ix3 b t j) k = ix3 b t k := funext fun a => match a with
    | ⟨0, _⟩ => rfl
    | ⟨1, _⟩ => rfl
    | ⟨2, _⟩ => rfl
  have hr : ridx_main_v0 (ix3 b t j) k = ix2 j k := funext fun a => match a with
    | ⟨0, _⟩ => rfl
    | ⟨1, _⟩ => rfl
  rw [hl, hr, hX, hW, EReal.coe_mul]

/-- The maximum of a token's logits, folded from minus infinity, is a real number. -/
private theorem rowMax_real (x0 : (⟨S8x512x4096, .f32⟩ : BufTy).Contents (Elt Ideal)) (x1 : (⟨S32000x4096, .f32⟩ : BufTy).Contents (Elt Ideal))
    (X : Fin 4096 → Fin 4096 → ℝ) (W : Fin 32000 → Fin 4096 → ℝ)
    (hX : ∀ (b : Fin 8) (t : Fin 512) (h : Fin 4096), x0 (ix3 b t h) = ((X (Cert.Spec.rowOf b t) h : ℝ) : EReal))
    (hW : ∀ (j : Fin 32000) (h : Fin 4096), x1 (ix2 j h) = ((W j h : ℝ) : EReal))
    (b : Fin 8) (t : Fin 512) :
    ∃ M : ℝ, val_main_call0_v0 (F := Ideal) x0 x1 (ix2 b t) = (M : EReal) := by
  have h : S8x512x32000.Reduces [2] S8x512 := by decide
  haveI : Nonempty (Fin (S8x512x32000.size 2)) := ⟨⟨0, by decide⟩⟩
  have hlift : ∀ q : Fin (S8x512x32000.size 2), h.lift (ix2 b t) q = ix3 b t (⟨q.val, q.isLt⟩ : Fin 32000) := fun q =>
    funext fun c => Fin.ext (match c with
      | ⟨0, _⟩ => rfl
      | ⟨1, _⟩ => rfl
      | ⟨2, _⟩ => rfl)
  obtain ⟨R, hR⟩ := Cert.Spec.fold_max_real (val_main_v0 (F := Ideal) x0 x1 ∘ h.lift (ix2 b t))
    (fun q => ⟨_, (congrArg (val_main_v0 (F := Ideal) x0 x1) (hlift q)).trans (logit_read x0 x1 X W hX hW b t _)⟩)
  refine ⟨R, ?_⟩
  unfold val_main_call0_v0
  rw [Host.reduce_eq_fold_single FloatOps.maximumf _ _ reducesTo_S8x512x32000_S8x512_d2 h h_S_]
  have e1 : val_main_call0_cst (F := Ideal) (Shape.Idx.first h_S_) = (⊥ : EReal) := ofBits_negInf
  rw [e1]
  exact hR

/-- A logit less the row maximum `M`, as the reference subtracts it (the maximum taken once more against minus infinity, broadcast
    along the vocabulary). -/
private theorem shift_read (x0 : (⟨S8x512x4096, .f32⟩ : BufTy).Contents (Elt Ideal)) (x1 : (⟨S32000x4096, .f32⟩ : BufTy).Contents (Elt Ideal))
    (X : Fin 4096 → Fin 4096 → ℝ) (W : Fin 32000 → Fin 4096 → ℝ)
    (hX : ∀ (b : Fin 8) (t : Fin 512) (h : Fin 4096), x0 (ix3 b t h) = ((X (Cert.Spec.rowOf b t) h : ℝ) : EReal))
    (hW : ∀ (j : Fin 32000) (h : Fin 4096), x1 (ix2 j h) = ((W j h : ℝ) : EReal))
    (b : Fin 8) (t : Fin 512) (M : ℝ) (hM : val_main_call0_v0 (F := Ideal) x0 x1 (ix2 b t) = (M : EReal)) (j : Fin 32000) :
    val_main_call0_v5 (F := Ideal) x0 x1 (ix3 b t j)
      = ((Cert.Spec.logit X W (Cert.Spec.rowOf b t) j : ℝ) : EReal) - (M : EReal) := by
  rw [val_main_call0_v5_apply, val_main_call0_v4_apply, val_main_call0_v3_apply, val_main_call0_v2_apply,
    val_main_call0_v1_apply, val_main_call0_cst_0_apply]
  have hi : idx_main_call0_v3 (idx_main_call0_v4 (ix3 b t j)) = ix2 b t := funext fun a => match a with
    | ⟨0, _⟩ => rfl
    | ⟨1, _⟩ => rfl
  rw [hi, hM, logit_read x0 x1 X W hX hW b t j, Ideal.subf_def, Ideal.maximumf_def, Ideal.ofBits_def, ofBits_negInf,
    max_eq_right bot_le]

/-- The sum the reference takes the logarithm of: the exponentials of the shifted logits over the vocabulary. -/
private theorem sumexp_read (x0 : (⟨S8x512x4096, .f32⟩ : BufTy).Contents (Elt Ideal)) (x1 : (⟨S32000x4096, .f32⟩ : BufTy).Contents (Elt Ideal))
    (X : Fin 4096 → Fin 4096 → ℝ) (W : Fin 32000 → Fin 4096 → ℝ)
    (hX : ∀ (b : Fin 8) (t : Fin 512) (h : Fin 4096), x0 (ix3 b t h) = ((X (Cert.Spec.rowOf b t) h : ℝ) : EReal))
    (hW : ∀ (j : Fin 32000) (h : Fin 4096), x1 (ix2 j h) = ((W j h : ℝ) : EReal))
    (b : Fin 8) (t : Fin 512) (M : ℝ) (hM : val_main_call0_v0 (F := Ideal) x0 x1 (ix2 b t) = (M : EReal)) :
    val_main_call0_v7 (F := Ideal) x0 x1 (ix2 b t)
      = ((∑ j : Fin 32000, Real.exp (Cert.Spec.logit X W (Cert.Spec.rowOf b t) j - M) : ℝ) : EReal) := by
  rw [val_main_call0_v7_apply, val_main_call0_cst_1_apply, Ideal.ofBits_def, Ideal.ofBits_zero_f32, zero_add, Cert.Spec.coe_sum]
  refine Finset.sum_congr rfl fun k _ => ?_
  have hi : idx_main_call0_v7 (ix2 b t) k = ix3 b t k := funext fun a => match a with
    | ⟨0, _⟩ => rfl
    | ⟨1, _⟩ => rfl
    | ⟨2, _⟩ => rfl
  rw [hi, val_main_call0_v6_apply, shift_read x0 x1 X W hX hW b t M hM k, Ideal.hostUnary_exp_def, ← EReal.coe_sub, Ideal.exp_coe]

/-- Entry (b, t, j) of the reference's log-softmax: the logit less the log-sum-exp of the token's logits. -/
private theorem logSoftmax_read (x0 : (⟨S8x512x4096, .f32⟩ : BufTy).Contents (Elt Ideal)) (x1 : (⟨S32000x4096, .f32⟩ : BufTy).Contents (Elt Ideal))
    (X : Fin 4096 → Fin 4096 → ℝ) (W : Fin 32000 → Fin 4096 → ℝ)
    (hX : ∀ (b : Fin 8) (t : Fin 512) (h : Fin 4096), x0 (ix3 b t h) = ((X (Cert.Spec.rowOf b t) h : ℝ) : EReal))
    (hW : ∀ (j : Fin 32000) (h : Fin 4096), x1 (ix2 j h) = ((W j h : ℝ) : EReal))
    (b : Fin 8) (t : Fin 512) (j : Fin 32000) :
    val_main_v1 (F := Ideal) x0 x1 (ix3 b t j)
      = ((Cert.Spec.logit X W (Cert.Spec.rowOf b t) j
          - Real.log (∑ k : Fin 32000, Real.exp (Cert.Spec.logit X W (Cert.Spec.rowOf b t) k)) : ℝ) : EReal) := by
  obtain ⟨M, hM⟩ := rowMax_real x0 x1 X W hX hW b t
  rw [val_main_v1_apply, val_main_call0_v10_apply, val_main_call0_v9_apply, val_main_call0_v8_apply]
  have hi : idx_main_call0_v8 (idx_main_call0_v10 (ix3 b t j)) = ix2 b t := funext fun a => match a with
    | ⟨0, _⟩ => rfl
    | ⟨1, _⟩ => rfl
  rw [hi, sumexp_read x0 x1 X W hX hW b t M hM, shift_read x0 x1 X W hX hW b t M hM j, Ideal.subf_def, Ideal.hostUnary_log_def]
  exact Cert.Spec.ref_row (fun k => Cert.Spec.logit X W (Cert.Spec.rowOf b t) k) j M

/-! ## The label's word through the index arithmetic of the gather's wrapper -/

/-- The start index the gather reads at (b, t, 0, 0): the label's word, which is not negative, so the wrapper's
    wrap-around of negative indices leaves it. -/
private theorem word_read (x2 : (⟨S8x512, .i32⟩ : BufTy).Contents (Elt Ideal)) (b : Fin 8) (t : Fin 512) (l : Fin 32000)
    (hl : val_main_v4 (F := Ideal) x2 (ix2 b t) = BitVec.ofNat 32 l.val) :
    val_main_call2_v5 (F := Ideal) x2 (ix4 b t (0 : Fin 1) (0 : Fin 1)) = BitVec.ofNat 32 l.val := by
  rw [val_main_call2_v5_apply, val_main_call2_v4_apply, val_main_call2_v1_apply, val_main_v5_apply, val_main_call2_v0_apply,
    val_main_call2_c_apply]
  have hi : idx_main_v5 (idx_main_call2_v5 (ix4 b t (0 : Fin 1) (0 : Fin 1))) = ix2 b t := funext fun a => match a with
    | ⟨0, _⟩ => Fin.ext (by
        show (((b.val * 512 + t.val) * 1 + 0) * 1 + 0) / 512 = b.val
        have := t.isLt; omega)
    | ⟨1, _⟩ => Fin.ext (by
        show (((b.val * 512 + t.val) * 1 + 0) * 1 + 0) / 1 % 512 = t.val
        have := t.isLt; omega)
  rw [hi, hl]
  have h0 : IntOp.cmpi .slt (BitVec.ofNat 32 l.val) 0#32 = 0#1 := by
    refine eq_zero_of_ne_one ?_
    rw [IntOp.cmpi_slt, toInt_ofNat_lt _ l.isLt]
    have hz : (0#32 : BitVec 32).toInt = 0 := by decide
    rw [hz]; omega
  rw [h0, select_zero]

/-- The wrapper's in-range test at (b, t, 0) holds: the label's word lies in [0, 31999]. -/
private theorem inRange_read (x2 : (⟨S8x512, .i32⟩ : BufTy).Contents (Elt Ideal)) (b : Fin 8) (t : Fin 512) (l : Fin 32000)
    (hl : val_main_v4 (F := Ideal) x2 (ix2 b t) = BitVec.ofNat 32 l.val) :
    val_main_call2_v12 (F := Ideal) x2 (ix3 b t (0 : Fin 1)) = 1#1 := by
  have h : S8x512x1x1.Reduces [3] S8x512x1 := by decide
  unfold val_main_call2_v12
  rw [Host.reduce_eq_fold_single IntOp.andi _ _ reducesTo_S8x512x1x1_S8x512x1_d3 h h_S_, val_main_call2_c_3_apply]
  refine fold_andi_one _ _ fun k => ?_
  have hk : h.lift (ix3 b t (0 : Fin 1)) k = ix4 b t (0 : Fin 1) (0 : Fin 1) := funext fun c => Fin.ext (match c with
    | ⟨0, _⟩ => rfl
    | ⟨1, _⟩ => rfl
    | ⟨2, _⟩ => rfl
    | ⟨3, _⟩ => by
        have hk1 : k.val < 1 := k.isLt
        show k.val = 0
        omega)
  show val_main_call2_v11 (F := Ideal) x2 (h.lift (ix3 b t (0 : Fin 1)) k) = 1#1
  rw [hk, val_main_call2_v11_apply, IntOp.andi_eq_one]
  have hw := word_read x2 b t l hl
  have hll := l.isLt
  constructor
  · rw [val_main_call2_v7_apply, IntOp.cmpi_sge, hw, val_main_call2_v6_apply, val_main_call2_c_2_apply, toInt_ofNat_lt _ l.isLt]
    have hz : (0#32 : BitVec 32).toInt = 0 := by decide
    rw [hz]; omega
  · rw [val_main_call2_v10_apply, IntOp.cmpi_sle, hw, val_main_call2_v9_apply, val_main_call2_v8_apply, val_main_call2_c_1_apply,
      toInt_ofNat_lt _ l.isLt]
    have hz : (31999#32 : BitVec 32).toInt = 31999 := by decide
    rw [hz]; omega

/-- Entry (b, t) of the reference's per-token array (`%7`, the gathered log-softmax reshaped to [8, 512]): the
    inputs' entries are the reals `X`, `W`, and the label the reference gathers at (`%4`: the target, or 0 where
    the target is the ignore index) is `lab`, inside the vocabulary. -/
theorem perTok (x0 : (⟨S8x512x4096, .f32⟩ : BufTy).Contents (Elt Ideal)) (x1 : (⟨S32000x4096, .f32⟩ : BufTy).Contents (Elt Ideal))
    (x2 : (⟨S8x512, .i32⟩ : BufTy).Contents (Elt Ideal))
    (X : Fin 4096 → Fin 4096 → ℝ) (W : Fin 32000 → Fin 4096 → ℝ) (lab : Fin 4096 → Fin 32000)
    (hX : ∀ (b : Fin 8) (t : Fin 512) (h : Fin 4096), x0 (ix3 b t h) = ((X (Cert.Spec.rowOf b t) h : ℝ) : EReal))
    (hW : ∀ (j : Fin 32000) (h : Fin 4096), x1 (ix2 j h) = ((W j h : ℝ) : EReal))
    (hlab : ∀ (b : Fin 8) (t : Fin 512),
      val_main_v4 (F := Ideal) x2 (ix2 b t) = BitVec.ofNat 32 (lab (Cert.Spec.rowOf b t)).val)
    (b : Fin 8) (t : Fin 512) :
    val_main_v7 (F := Ideal) x0 x1 x2 (ix2 b t) = ((Cert.Spec.tokLogp X W lab (Cert.Spec.rowOf b t) : ℝ) : EReal) := by
  rw [val_main_v7_apply]
  have hi : idx_main_v7 (ix2 b t) = ix3 b t (0 : Fin 1) := funext fun a => match a with
    | ⟨0, _⟩ => Fin.ext (by
        show (b.val * 512 + t.val) / 512 = b.val
        have := t.isLt; omega)
    | ⟨1, _⟩ => Fin.ext (by
        show (b.val * 512 + t.val) / 1 % 512 = t.val
        have := t.isLt; omega)
    | ⟨2, _⟩ => rfl
  rw [hi, val_main_v6_apply, inRange_read x2 b t _ (hlab b t), select_one]
  unfold val_main_call2_v13
  rw [gather_read _ _ b t (lab (Cert.Spec.rowOf b t)) (word_read x2 b t _ (hlab b t)),
    logSoftmax_read x0 x1 X W hX hW b t]
  rfl

end Cert.ReferenceIdeal.RefValue

end
-- ==== Proof.RefFinal.lean ====
/-
  The reference's run with its result named: with real inputs and labels inside the vocabulary, every weakly fair
  execution ends with the result at the loss of the per-token log-probabilities and the not-ignored mask, and the
  arguments unchanged.
-/
import proofs.«430064_j67920612819621_3_alg».proof.Proof.RefRun
import proofs.«430064_j67920612819621_3_alg».proof.Proof.RefRead
import proofs.«430064_j67920612819621_3_alg».proof.Proof.RefValue
import proofs.«430064_j67920612819621_3_alg».proof.Proof.Spec

noncomputable section

namespace Cert.ReferenceIdeal.RefFinal

open Cert.ReferenceIdeal Cert.ReferenceIdeal.Gen Cert.ReferenceIdeal.ReadP Idealize.ShloMosaic Idealize.ShloMosaic.TcCoe Idealize.SL.Sem
open Idealize.ShloMosaic.ValueIdx

variable {F : FTy → Type} [FloatOps F]

/-- The loss from the per-token values and the mask, both [8, 512]: the per-sequence average of the masked values
    over the mask's count, chosen half minus rejected half, averaged and scaled. -/
def lossCore (P Mk : FVec F S8x512 .f32) : FVec F S_ .f32 :=
  mulf (constant S_ .f32 0xBDCCCCCD#32)
    (Host.divf (Host.reduceAdd
      (subf
        (extractStridedSlice S4 ![0]
          (Host.divf (Host.reduceAdd (mulf P Mk) (constant S_ .f32 0x00000000#32) reducesTo_S8x512_S8_d1 h_S_)
            (Host.reduceAdd Mk (constant S_ .f32 0x00000000#32) reducesTo_S8x512_S8_d1 h_S_)) slices_S8_S4_0)
        (extractStridedSlice S4 ![4]
          (Host.divf (Host.reduceAdd (mulf P Mk) (constant S_ .f32 0x00000000#32) reducesTo_S8x512_S8_d1 h_S_)
            (Host.reduceAdd Mk (constant S_ .f32 0x00000000#32) reducesTo_S8x512_S8_d1 h_S_)) slices_S8_S4_4))
      (constant S_ .f32 0x00000000#32) reducesTo_S4_S_d0 h_S_) (constant S_ .f32 0x40800000#32))

/-- The reference's last stages are that loss of its per-token array and its mask. -/
theorem val18 (x0 : (⟨S8x512x4096, .f32⟩ : BufTy).Contents (Elt F)) (x1 : (⟨S32000x4096, .f32⟩ : BufTy).Contents (Elt F))
    (x2 : (⟨S8x512, .i32⟩ : BufTy).Contents (Elt F)) :
    val_main_v18 (F := F) x0 x1 x2 = lossCore (val_main_v7 (F := F) x0 x1 x2) (val_main_v8 (F := F) x2) := rfl

/-- The per-token log-probabilities as an [8, 512] array. -/
def tokArr (X : Fin 4096 → Fin 4096 → ℝ) (W : Fin 32000 → Fin 4096 → ℝ) (lab : Fin 4096 → Fin 32000) : FVec Ideal S8x512 .f32 :=
  fun i => ((Cert.Spec.tokLogp X W lab (Cert.Spec.rowOf ⟨(i 0).val, (i 0).isLt⟩ ⟨(i 1).val, (i 1).isLt⟩) : ℝ) : EReal)

/-- The mask of the targets that are not the ignore index, as zeros and ones. -/
def maskArr (a2 : IVec S8x512 32) : FVec Ideal S8x512 .f32 :=
  uitofp .f32 (fun i => IntOp.cmpi .ne (a2 i) 4294967196#32)

theorem run (m : (ℓ : Loc nD τ sig) → Buf (Elt Ideal) ℓ) (ρ : Dev nD → PrngReg)
    (X : Fin 4096 → Fin 4096 → ℝ) (W : Fin 32000 → Fin 4096 → ℝ) (lab : Fin 4096 → Fin 32000)
    (hX : ∀ (b : Fin 8) (t : Fin 512) (h : Fin 4096),
      m (((0 : Dev nD).tc : Thread nD τ).loc main_arg0) (ix3 b t h) = ((X (Cert.Spec.rowOf b t) h : ℝ) : EReal))
    (hW : ∀ (j : Fin 32000) (h : Fin 4096), m (((0 : Dev nD).tc : Thread nD τ).loc main_arg1) (ix2 j h) = ((W j h : ℝ) : EReal))
    (hL : ∀ (b : Fin 8) (t : Fin 512),
      Scalar.select (IntOp.cmpi .ne (m (((0 : Dev nD).tc : Thread nD τ).loc main_arg2) (ix2 b t)) 4294967196#32)
        (m (((0 : Dev nD).tc : Thread nD τ).loc main_arg2) (ix2 b t)) 0#32 = BitVec.ofNat 32 (lab (Cert.Spec.rowOf b t)).val) :
    θ_run defs (onTc (τ := τ) (main (F := Ideal))) ⟨m, fun _ => 0, ρ⟩ (fun r => ∀ c : Dev nD,
      r.2.mem ((c.tc : Thread nD τ).loc main_v18)
        = lossCore (tokArr X W lab) (maskArr (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, (h c).2⟩) (Cert.ReferenceIdeal.ValueP.run (F := Ideal) m ρ)
  obtain rfl : c = 0 := Subsingleton.elim _ _
  rw [(h 0).1, val18]
  congr 1
  funext i
  obtain ⟨b, t, rfl⟩ : ∃ (b : Fin 8) (t : Fin 512), i = ix2 b t := ⟨i 0, i 1, eq_ix2 i⟩
  exact Cert.ReferenceIdeal.RefValue.perTok _ _ _ X W lab hX hW (fun b t => hL b t) b t

end Cert.ReferenceIdeal.RefFinal

end
-- ==== Proof.lean ====
/-
  The certificate's claims.

  The kernel computes, for each of the 4096 token rows, the log-probability a softmax over the 32000-entry
  vocabulary gives the row's label, by a streaming log-sum-exp over 125 vocabulary tiles (a running maximum, a
  running sum of exponentials rescaled to the new maximum, and the label's logit picked by a one-hot compare), and
  the lines after the region average these per sequence over the not-ignored tokens and take the scaled mean of
  chosen minus rejected halves; the reference takes the logits whole, a log-softmax, and gathers at the label.
  Over the extended reals, with every float input a real and every target the ignore index or a vocabulary index
  (the statement's precondition), both per-token values are `logit(label) - log (∑ exp logit)`: the shift by a
  row maximum, running or whole, cancels.  Where the target is the ignore index both programs use label zero and
  weight the token by zero.  The frames are the generated ones (the reference's: its run with the result dropped);
  the ideal pass rewrote nothing.
-/
import proofs.«430064_j67920612819621_3_alg».proof.Defs
import proofs.«430064_j67920612819621_3_alg».proof.Proof.Gen.Kernel
import proofs.«430064_j67920612819621_3_alg».proof.Proof.Gen.Kernel.Skeleton
import proofs.«430064_j67920612819621_3_alg».proof.Proof.Gen.Kernel.Launch
import proofs.«430064_j67920612819621_3_alg».proof.Proof.Gen.Kernel.Points
import proofs.«430064_j67920612819621_3_alg».proof.Proof.Gen.Kernel.Frame
import proofs.«430064_j67920612819621_3_alg».proof.Proof.Gen.KernelIdeal
import proofs.«430064_j67920612819621_3_alg».proof.Proof.Gen.KernelIdeal.Skeleton
import proofs.«430064_j67920612819621_3_alg».proof.Proof.Gen.KernelIdeal.Launch
import proofs.«430064_j67920612819621_3_alg».proof.Proof.Gen.KernelIdeal.Points
import proofs.«430064_j67920612819621_3_alg».proof.Proof.Gen.KernelIdeal.Frame
import proofs.«430064_j67920612819621_3_alg».proof.Proof.Gen.ReferenceIdeal
import proofs.«430064_j67920612819621_3_alg».proof.Proof.Gen.Pre_finite_inputs
import proofs.«430064_j67920612819621_3_alg».proof.Proof.PreRead
import proofs.«430064_j67920612819621_3_alg».proof.Proof.KerFinal
import proofs.«430064_j67920612819621_3_alg».proof.Proof.RefFinal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Row `512 b + t` of the flattened batch is token `t` of sequence `b`. -/
theorem seq_row (b : Fin 8) (t : Fin 512) : Cert.KernelIdeal.KerHost.seqOf (Cert.Spec.rowOf b t) = b := by
  apply Fin.ext; show (b.val * 512 + t.val) / 512 = b.val; have := t.isLt; omega
theorem tok_row (b : Fin 8) (t : Fin 512) : Cert.KernelIdeal.KerHost.tokOf (Cert.Spec.rowOf b t) = t := by
  apply Fin.ext; show (b.val * 512 + t.val) % 512 = t.val; have := t.isLt; omega

/-- A target that is the ignore index or a vocabulary index gives a label word below 32000. -/
theorem label_lt (w : BitVec 32) (h : w = 4294967196#32 ∨ w.toNat < 32000) :
    (Scalar.select (IntOp.cmpi .ne w 4294967196#32) w 0#32).toNat < 32000 := by
  rcases h with rfl | h
  · decide
  · unfold Scalar.select
    split
    · exact h
    · decide

/-- The token rows' entries, the weights' entries and the labels, read off the three input arrays. -/
def Xof (a0 : (⟨3, ![8, 512, 4096]⟩ : Shape).Idx → EReal) : Fin 4096 → Fin 4096 → ℝ := fun r h =>
  (a0 (ix3 (Cert.KernelIdeal.KerHost.seqOf r) (Cert.KernelIdeal.KerHost.tokOf r) h)).toReal
def Wof (a1 : (⟨2, ![32000, 4096]⟩ : Shape).Idx → EReal) : Fin 32000 → Fin 4096 → ℝ := fun j h => (a1 (ix2 j h)).toReal
def labOf (a2 : (⟨2, ![8, 512]⟩ : Shape).Idx → BitVec 32) (h2 : ∀ i, a2 i = 4294967196#32 ∨ (a2 i).toNat < 32000) :
    Fin 4096 → Fin 32000 := fun r =>
  ⟨(Scalar.select (IntOp.cmpi .ne (a2 (ix2 (Cert.KernelIdeal.KerHost.seqOf r) (Cert.KernelIdeal.KerHost.tokOf r))) 4294967196#32)
      (a2 (ix2 (Cert.KernelIdeal.KerHost.seqOf r) (Cert.KernelIdeal.KerHost.tokOf r))) 0#32).toNat, label_lt _ (h2 _)⟩

theorem Xof_row (a0 : (⟨3, ![8, 512, 4096]⟩ : Shape).Idx → EReal) (hf : ∀ i, ∃ r : ℝ, a0 i = (r : EReal))
    (b : Fin 8) (t : Fin 512) (h : Fin 4096) : a0 (ix3 b t h) = ((Xof a0 (Cert.Spec.rowOf b t) h : ℝ) : EReal) := by
  unfold Xof
  rw [seq_row, tok_row]
  obtain ⟨r, hr⟩ := hf (ix3 b t h)
  rw [hr, EReal.toReal_coe]

theorem Wof_at (a1 : (⟨2, ![32000, 4096]⟩ : Shape).Idx → EReal) (hf : ∀ i, ∃ r : ℝ, a1 i = (r : EReal))
    (j : Fin 32000) (h : Fin 4096) : a1 (ix2 j h) = ((Wof a1 j h : ℝ) : EReal) := by
  unfold Wof
  obtain ⟨r, hr⟩ := hf (ix2 j h)
  rw [hr, EReal.toReal_coe]

theorem labOf_row (a2 : (⟨2, ![8, 512]⟩ : Shape).Idx → BitVec 32) (h2 : ∀ i, a2 i = 4294967196#32 ∨ (a2 i).toNat < 32000)
    (b : Fin 8) (t : Fin 512) :
    Scalar.select (IntOp.cmpi .ne (a2 (ix2 b t)) 4294967196#32) (a2 (ix2 b t)) 0#32
      = BitVec.ofNat 32 (labOf a2 h2 (Cert.Spec.rowOf b t)).val := by
  unfold labOf
  dsimp only
  rw [seq_row, tok_row, BitVec.ofNat_toNat, BitVec.setWidth_eq]

/-- Both programs, from memories agreeing on the arguments, end at the same loss: of the same per-token
    log-probabilities and the same mask. -/
theorem algebraic : Cert.algebraic_KernelIdeal_ReferenceIdeal := by
  intro m ρ m' ρ' hpre hagree
  obtain ⟨hf0, hf1, hi2⟩ := Cert.PreRead.reads _ _ _ (hpre 0)
  refine ⟨fun c => Cert.KernelIdeal.KerHost.lossCore
      (Cert.KernelIdeal.KerFinal.tokArr (Xof _) (Wof _) (labOf _ hi2))
      (Cert.KernelIdeal.KerFinal.maskArr (m ((c.tc : Thread Cert.KernelIdeal.nD Cert.KernelIdeal.τ).loc Cert.KernelIdeal.main_arg2))),
    Cert.KernelIdeal.KerFinal.run m ρ (Xof _) (Wof _) (labOf _ hi2) (Xof_row _ hf0) (Wof_at _ hf1) (labOf_row _ hi2), ?_⟩
  refine (θ_run Cert.ReferenceIdeal.defs _ _).mono (fun r h c => ⟨(h c).1.trans ?_, (h c).2⟩)
    (Cert.ReferenceIdeal.RefFinal.run m' ρ' (Xof _) (Wof _) (labOf _ hi2)
      (fun b t h => by rw [(hagree 0).1]; exact Xof_row _ hf0 b t h)
      (fun j h => by rw [(hagree 0).2.1]; exact Wof_at _ hf1 j h)
      (fun b t => by rw [(hagree 0).2.2]; exact labOf_row _ hi2 b t))
  rw [(hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
